-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x875 : Shape := ⟨2, ![512, 875]⟩
abbrev S2408x875 : Shape := ⟨2, ![2408, 875]⟩
abbrev S2408 : Shape := ⟨1, ![2408]⟩
abbrev S1024x2408 : Shape := ⟨2, ![1024, 2408]⟩
abbrev S1024 : Shape := ⟨1, ![1024]⟩
abbrev S206x1024 : Shape := ⟨2, ![206, 1024]⟩
abbrev S206 : Shape := ⟨1, ![206]⟩
abbrev S_ : Shape := ⟨0, ![]⟩

class Facts : Prop where
  bcast_S_S512x875 : S_.BroadcastsInDim S512x875 (![] : Fin 0 → Fin S512x875.rank)
  reducesTo_S512x875_S_d0_1 : S512x875.ReducesTo [0, 1] S_
  h_S_ : 0 < S_.numel
  bcast_S_S2408x875 : S_.BroadcastsInDim S2408x875 (![] : Fin 0 → Fin S2408x875.rank)
  reducesTo_S2408x875_S_d0_1 : S2408x875.ReducesTo [0, 1] S_
  bcast_S_S2408 : S_.BroadcastsInDim S2408 (![] : Fin 0 → Fin S2408.rank)
  reducesTo_S2408_S_d0 : S2408.ReducesTo [0] S_
  bcast_S_S1024x2408 : S_.BroadcastsInDim S1024x2408 (![] : Fin 0 → Fin S1024x2408.rank)
  reducesTo_S1024x2408_S_d0_1 : S1024x2408.ReducesTo [0, 1] S_
  bcast_S_S1024 : S_.BroadcastsInDim S1024 (![] : Fin 0 → Fin S1024.rank)
  reducesTo_S1024_S_d0 : S1024.ReducesTo [0] S_
  bcast_S_S206x1024 : S_.BroadcastsInDim S206x1024 (![] : Fin 0 → Fin S206x1024.rank)
  reducesTo_S206x1024_S_d0_1 : S206x1024.ReducesTo [0, 1] S_
  bcast_S_S206 : S_.BroadcastsInDim S206 (![] : Fin 0 → Fin S206.rank)
  reducesTo_S206_S_d0 : S206.ReducesTo [0] S_

variable [Facts]

def fn_part5 {F : FTy → Type} [FloatOps F] (main_v79 : IVec S_ 1) (main_v83 : IVec S1024 1) (main_c_33 : IVec S_ 1) : IVec S_ 1 :=
  let main_v84 : IVec S_ 1 := (fun x v => Host.reduce IntOp.andi x v reducesTo_S1024_S_d0 h_S_) main_v83 main_c_33
  let main_v85 : IVec S_ 1 := andi main_v79 main_v84
  main_v85

def fn_part4 {F : FTy → Type} [FloatOps F] (main_arg6 : FVec F S2408 .f32) (main_arg12 : FVec F S1024 .f32) (main_arg14 : FVec F S206 .f32) (main_v63 : IVec S_ 1) (main_v67 : IVec S_ 1) : IVec S_ 1 :=
  let main_v68 : IVec S_ 1 := andi main_v63 main_v67
  let main_v69 : FVec F S206 .f32 := Host.absf main_arg14
  let main_cst_26 : FVec F S_ .f32 := constant S_ .f32 0x7F800000#32
  let main_v70 : FVec F S206 .f32 := broadcastInDim S206 ![] bcast_S_S206 main_cst_26
  let main_v71 : IVec S206 1 := cmpf .olt main_v69 main_v70
  let main_c_27 : IVec S_ 1 := constantI S_ 1 1#1
  let main_v72 : IVec S_ 1 := (fun x v => Host.reduce IntOp.andi x v reducesTo_S206_S_d0 h_S_) main_v71 main_c_27
  let main_v73 : IVec S_ 1 := andi main_v68 main_v72
  let main_cst_28 : FVec F S_ .f32 := constant S_ .f32 0x3727C5AC#32
  let main_v74 : FVec F S2408 .f32 := broadcastInDim S2408 ![] bcast_S_S2408 main_cst_28
  let main_v75 : FVec F S2408 .f32 := addf main_arg6 main_v74
  let main_cst_29 : FVec F S_ .f32 := constant S_ .f32 0x00000000#32
  let main_v76 : FVec F S2408 .f32 := broadcastInDim S2408 ![] bcast_S_S2408 main_cst_29
  let main_v77 : IVec S2408 1 := cmpf .ogt main_v75 main_v76
  let main_c_30 : IVec S_ 1 := constantI S_ 1 1#1
  let main_v78 : IVec S_ 1 := (fun x v => Host.reduce IntOp.andi x v reducesTo_S2408_S_d0 h_S_) main_v77 main_c_30
  let main_v79 : IVec S_ 1 := andi main_v73 main_v78
  let main_cst_31 : FVec F S_ .f32 := constant S_ .f32 0x3727C5AC#32
  let main_v80 : FVec F S1024 .f32 := broadcastInDim S1024 ![] bcast_S_S1024 main_cst_31
  let main_v81 : FVec F S1024 .f32 := addf main_arg12 main_v80
  let main_cst_32 : FVec F S_ .f32 := constant S_ .f32 0x00000000#32
  let main_v82 : FVec F S1024 .f32 := broadcastInDim S1024 ![] bcast_S_S1024 main_cst_32
  let main_v83 : IVec S1024 1 := cmpf .ogt main_v81 main_v82
  let main_c_33 : IVec S_ 1 := constantI S_ 1 1#1
  fn_part5 (F := F) main_v79 main_v83 main_c_33

def fn_part3 {F : FTy → Type} [FloatOps F] (main_arg6 : FVec F S2408 .f32) (main_arg11 : FVec F S1024 .f32) (main_arg12 : FVec F S1024 .f32) (main_arg13 : FVec F S206x1024 .f32) (main_arg14 : FVec F S206 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S206x1024 .f32 := Host.absf main_arg13
  let main_cst_24 : FVec F S_ .f32 := constant S_ .f32 0x7F800000#32
  let main_v65 : FVec F S206x1024 .f32 := broadcastInDim S206x1024 ![] bcast_S_S206x1024 main_cst_24
  let main_v66 : IVec S206x1024 1 := cmpf .olt main_v64 main_v65
  let main_c_25 : IVec S_ 1 := constantI S_ 1 1#1
  let main_v67 : IVec S_ 1 := (fun x v => Host.reduce IntOp.andi x v reducesTo_S206x1024_S_d0_1 h_S_) main_v66 main_c_25
  fn_part4 (F := F) main_arg6 main_arg12 main_arg14 main_v63 main_v67

def fn_part2 {F : FTy → Type} [FloatOps F] (main_arg6 : FVec F S2408 .f32) (main_arg7 : FVec F S1024x2408 .f32) (main_arg8 : FVec F S1024 .f32) (main_arg9 : FVec F S1024 .f32) (main_arg10 : FVec F S1024 .f32) (main_arg11 : FVec F S1024 .f32) (main_arg12 : FVec F S1024 .f32) (main_arg13 : FVec F S206x1024 .f32) (main_arg14 : FVec F S206 .f32) (main_v33 : IVec S_ 1) : IVec S_ 1 :=
  let main_v34 : FVec F S1024x2408 .f32 := Host.absf main_arg7
  let main_cst_12 : FVec F S_ .f32 := constant S_ .f32 0x7F800000#32
  let main_v35 : FVec F S1024x2408 .f32 := broadcastInDim S1024x2408 ![] bcast_S_S1024x2408 main_cst_12
  let main_v36 : IVec S1024x2408 1 := cmpf .olt main_v34 main_v35
  let main_c_13 : IVec S_ 1 := constantI S_ 1 1#1
  let main_v37 : IVec S_ 1 := (fun x v => Host.reduce IntOp.andi x v reducesTo_S1024x2408_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg6 main_arg11 main_arg12 main_arg13 main_arg14 main_v48 main_v49 main_v50

def fn_part1 {F : FTy → Type} [FloatOps F] (main_arg4 : FVec F S2408 .f32) (main_arg5 : FVec F S2408 .f32) (main_arg6 : FVec F S2408 .f32) (main_arg7 : FVec F S1024x2408 .f32) (main_arg8 : FVec F S1024 .f32) (main_arg9 : FVec F S1024 .f32) (main_arg10 : FVec F S1024 .f32) (main_arg11 : FVec F S1024 .f32) (main_arg12 : FVec F S1024 .f32) (main_arg13 : FVec F S206x1024 .f32) (main_arg14 : FVec F S206 .f32) (main_v13 : IVec S_ 1) (main_v16 : IVec S2408 1) : IVec S_ 1 :=
  let main_c_5 : IVec S_ 1 := constantI S_ 1 1#1
  let main_v17 : IVec S_ 1 := (fun x v => Host.reduce IntOp.andi x v reducesTo_S2408_S_d0 h_S_) main_v16 main_c_5
  let main_v18 : IVec S_ 1 := andi main_v13 main_v17
  let main_v19 : FVec F S2408 .f32 := Host.absf main_arg4
  let main_cst_6 : FVec F S_ .f32 := constant S_ .f32 0x7F800000#32
  let main_v20 : FVec F S2408 .f32 := broadcastInDim S2408 ![] bcast_S_S2408 main_cst_6
  let main_v21 : IVec S2408 1 := cmpf .olt main_v19 main_v20
  let main_c_7 : IVec S_ 1 := constantI S_ 1 1#1
  let main_v22 : IVec S_ 1 := (fun x v => Host.reduce IntOp.andi x v reducesTo_S2408_S_d0 h_S_) main_v21 main_c_7
  let main_v23 : IVec S_ 1 := andi main_v18 main_v22
  let main_v24 : FVec F S2408 .f32 := Host.absf main_arg5
  let main_cst_8 : FVec F S_ .f32 := constant S_ .f32 0x7F800000#32
  let main_v25 : FVec F S2408 .f32 := broadcastInDim S2408 ![] bcast_S_S2408 main_cst_8
  let main_v26 : IVec S2408 1 := cmpf .olt main_v24 main_v25
  let main_c_9 : IVec S_ 1 := constantI S_ 1 1#1
  let main_v27 : IVec S_ 1 := (fun x v => Host.reduce IntOp.andi x v reducesTo_S2408_S_d0 h_S_) main_v26 main_c_9
  let main_v28 : IVec S_ 1 := andi main_v23 main_v27
  let main_v29 : FVec F S2408 .f32 := Host.absf main_arg6
  let main_cst_10 : FVec F S_ .f32 := constant S_ .f32 0x7F800000#32
  let main_v30 : FVec F S2408 .f32 := broadcastInDim S2408 ![] bcast_S_S2408 main_cst_10
  let main_v31 : IVec S2408 1 := cmpf .olt main_v29 main_v30
  let main_c_11 : IVec S_ 1 := constantI S_ 1 1#1
  let main_v32 : IVec S_ 1 := (fun x v => Host.reduce IntOp.andi x v reducesTo_S2408_S_d0 h_S_) main_v31 main_c_11
  let main_v33 : IVec S_ 1 := andi main_v28 main_v32
  fn_part2 (F := F) main_arg6 main_arg7 main_arg8 main_arg9 main_arg10 main_arg11 main_arg12 main_arg13 main_arg14 main_v33

def fn {F : FTy → Type} [FloatOps F] (main_arg0 : FVec F S512x875 .f32) (main_arg1 : FVec F S2408x875 .f32) (main_arg2 : FVec F S2408 .f32) (main_arg3 : FVec F S2408 .f32) (main_arg4 : FVec F S2408 .f32) (main_arg5 : FVec F S2408 .f32) (main_arg6 : FVec F S2408 .f32) (main_arg7 : FVec F S1024x2408 .f32) (main_arg8 : FVec F S1024 .f32) (main_arg9 : FVec F S1024 .f32) (main_arg10 : FVec F S1024 .f32) (main_arg11 : FVec F S1024 .f32) (main_arg12 : FVec F S1024 .f32) (main_arg13 : FVec F S206x1024 .f32) (main_arg14 : FVec F S206 .f32) : IVec S_ 1 :=
  let main_v0 : FVec F S512x875 .f32 := Host.absf main_arg0
  let main_cst : FVec F S_ .f32 := constant S_ .f32 0x7F800000#32
  let main_v1 : FVec F S512x875 .f32 := broadcastInDim S512x875 ![] bcast_S_S512x875 main_cst
  let main_v2 : IVec S512x875 1 := cmpf .olt main_v0 main_v1
  let main_c : IVec S_ 1 := constantI S_ 1 1#1
  let main_v3 : IVec S_ 1 := (fun x v => Host.reduce IntOp.andi x v reducesTo_S512x875_S_d0_1 h_S_) main_v2 main_c
  let main_v4 : FVec F S2408x875 .f32 := Host.absf main_arg1
  let main_cst_0 : FVec F S_ .f32 := constant S_ .f32 0x7F800000#32
  let main_v5 : FVec F S2408x875 .f32 := broadcastInDim S2408x875 ![] bcast_S_S2408x875 main_cst_0
  let main_v6 : IVec S2408x875 1 := cmpf .olt main_v4 main_v5
  let main_c_1 : IVec S_ 1 := constantI S_ 1 1#1
  let main_v7 : IVec S_ 1 := (fun x v => Host.reduce IntOp.andi x v reducesTo_S2408x875_S_d0_1 h_S_) main_v6 main_c_1
  let main_v8 : IVec S_ 1 := andi main_v3 main_v7
  let main_v9 : FVec F S2408 .f32 := Host.absf main_arg2
  let main_cst_2 : FVec F S_ .f32 := constant S_ .f32 0x7F800000#32
  let main_v10 : FVec F S2408 .f32 := broadcastInDim S2408 ![] bcast_S_S2408 main_cst_2
  let main_v11 : IVec S2408 1 := cmpf .olt main_v9 main_v10
  let main_c_3 : IVec S_ 1 := constantI S_ 1 1#1
  let main_v12 : IVec S_ 1 := (fun x v => Host.reduce IntOp.andi x v reducesTo_S2408_S_d0 h_S_) main_v11 main_c_3
  let main_v13 : IVec S_ 1 := andi main_v8 main_v12
  let main_v14 : FVec F S2408 .f32 := Host.absf main_arg3
  let main_cst_4 : FVec F S_ .f32 := constant S_ .f32 0x7F800000#32
  let main_v15 : FVec F S2408 .f32 := broadcastInDim S2408 ![] bcast_S_S2408 main_cst_4
  let main_v16 : IVec S2408 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S512x875 : Shape := ⟨2, ![512, 875]⟩
abbrev S2408x875 : Shape := ⟨2, ![2408, 875]⟩
abbrev S2408 : Shape := ⟨1, ![2408]⟩
abbrev S1024x2408 : Shape := ⟨2, ![1024, 2408]⟩
abbrev S1024 : Shape := ⟨1, ![1024]⟩
abbrev S206x1024 : Shape := ⟨2, ![206, 1024]⟩
abbrev S206 : Shape := ⟨1, ![206]⟩
abbrev S_ : Shape := ⟨0, ![]⟩
abbrev S1x2408 : Shape := ⟨2, ![1, 2408]⟩
abbrev S1x1024 : Shape := ⟨2, ![1, 1024]⟩
abbrev S1x206 : Shape := ⟨2, ![1, 206]⟩
abbrev S512x206 : Shape := ⟨2, ![512, 206]⟩
abbrev S128x875 : Shape := ⟨2, ![128, 875]⟩
abbrev S128x206 : Shape := ⟨2, ![128, 206]⟩
abbrev S128 : Shape := ⟨1, ![128]⟩
abbrev S128x1 : Shape := ⟨2, ![128, 1]⟩
abbrev S128x2408 : Shape := ⟨2, ![128, 2408]⟩
abbrev S128x1024 : Shape := ⟨2, ![128, 1024]⟩

abbrev nBuf : Space → Nat
  | .hbm => 34
  | .vmem => 19
  | .smem => 0
  | _ => 0

abbrev bufTy : (tb : Table) → Fin (tcTables nBuf tb) → BufTy
  | .hbm, ⟨0, _⟩ => ⟨S512x875, .f32⟩
  | .hbm, ⟨1, _⟩ => ⟨S2408x875, .f32⟩
  | .hbm, ⟨2, _⟩ => ⟨S2408, .f32⟩
  | .hbm, ⟨3, _⟩ => ⟨S2408, .f32⟩
  | .hbm, ⟨4, _⟩ => ⟨S2408, .f32⟩
  | .hbm, ⟨5, _⟩ => ⟨S2408, .f32⟩
  | .hbm, ⟨6, _⟩ => ⟨S2408, .f32⟩
  | .hbm, ⟨7, _⟩ => ⟨S1024x2408, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S206x1024, .f32⟩
  | .hbm, ⟨14, _⟩ => ⟨S206, .f32⟩
  | .hbm, ⟨15, _⟩ => ⟨S2408x875, .f32⟩
  | .hbm, ⟨16, _⟩ => ⟨S_, .f32⟩
  | .hbm, ⟨17, _⟩ => ⟨S2408, .f32⟩
  | .hbm, ⟨18, _⟩ => ⟨S1x2408, .f32⟩
  | .hbm, ⟨19, _⟩ => ⟨S2408x875, .bf16⟩
  | .hbm, ⟨20, _⟩ => ⟨S1024x2408, .bf16⟩
  | .hbm, ⟨21, _⟩ => ⟨S206x1024, .bf16⟩
  | .hbm, ⟨22, _⟩ => ⟨S1x2408, .f32⟩
  | .hbm, ⟨23, _⟩ => ⟨S1x2408, .f32⟩
  | .hbm, ⟨24, _⟩ => ⟨S1x2408, .f32⟩
  | .hbm, ⟨25, _⟩ => ⟨S1x2408, .f32⟩
  | .hbm, ⟨26, _⟩ => ⟨S1x2408, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x206, .f32⟩
  | .hbm, ⟨33, _⟩ => ⟨S512x206, .f32⟩
  | .local _ .vmem, ⟨0, _⟩ => ⟨S128x875, .f32⟩
  | .local _ .vmem, ⟨1, _⟩ => ⟨S128x875, .f32⟩
  | .local _ .vmem, ⟨2, _⟩ => ⟨S2408x875, .bf16⟩
  | .local _ .vmem, ⟨3, _⟩ => ⟨S1x2408, .f32⟩
  | .local _ .vmem, ⟨4, _⟩ => ⟨S1x2408, .f32⟩
  | .local _ .vmem, ⟨5, _⟩ => ⟨S1x2408, .f32⟩
  | .local _ .vmem, ⟨6, _⟩ => ⟨S1x2408, .f32⟩
  | .local _ .vmem, ⟨7, _⟩ => ⟨S1x2408, .f32⟩
  | .local _ .vmem, ⟨8, _⟩ => ⟨S1x2408, .f32⟩
  | .local _ .vmem, ⟨9, _⟩ => ⟨S1024x2408, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S206x1024, .bf16⟩
  | .local _ .vmem, ⟨16, _⟩ => ⟨S1x206, .f32⟩
  | .local _ .vmem, ⟨17, _⟩ => ⟨S128x206, .f32⟩
  | .local _ .vmem, ⟨18, _⟩ => ⟨S128x206, .f32⟩
  | _, _ => ⟨S512x875, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x875 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2408x875 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S206x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x206 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x206 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  reducesTo_S2408x875_S2408_d1 : S2408x875.ReducesTo [1] S2408
  h_S_ : 0 < S_.numel
  shapeCasts_S2408_S1x2408 : S2408.ShapeCasts S1x2408
  bitsLt_bf16_f32 : FTy.bits .bf16 < FTy.bits .f32
  shapeCasts_S1024_S1x1024 : S1024.ShapeCasts S1x1024
  shapeCasts_S206_S1x206 : S206.ShapeCasts S1x206
  inb_S128x875_S128x875_0_0 : ∀ a, (![0, 0] : Fin 2 → Nat) a + S128x875.size a ≤ S128x875.size a
  h_S128x875 : 0 < S128x875.numel
  reduces_S128x875_S128 : S128x875.Reduces [1] S128
  shapeCasts_S128_S128x1 : S128.ShapeCasts S128x1
  inb_S2408x875_S2408x875_0_0 : ∀ a, (![0, 0] : Fin 2 → Nat) a + S2408x875.size a ≤ S2408x875.size a
  h_S2408x875 : 0 < S2408x875.numel
  shapeCasts_S2408x875_S2408x875 : S2408x875.ShapeCasts S2408x875
  inb_S1x2408_S1x2408_0_0 : ∀ a, (![0, 0] : Fin 2 → Nat) a + S1x2408.size a ≤ S1x2408.size a
  h_S1x2408 : 0 < S1x2408.numel
  shapeCasts_S1x2408_S1x2408 : S1x2408.ShapeCasts S1x2408
  broadcasts_S128x1_S128x2408 : S128x1.Broadcasts S128x2408
  broadcasts_S1x2408_S128x2408 : S1x2408.Broadcasts S128x2408
  inb_S1024x2408_S1024x2408_0_0 : ∀ a, (![0, 0] : Fin 2 → Nat) a + S1024x2408.size a ≤ S1024x2408.size a
  h_S1024x2408 : 0 < S1024x2408.numel
  shapeCasts_S1024x2408_S1024x2408 : S1024x2408.ShapeCasts S1024x2408
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S206x1024_S206x1024_0_0 : ∀ a, (![0, 0] : Fin 2 → Nat) a + S206x1024.size a ≤ S206x1024.size a
  h_S206x1024 : 0 < S206x1024.numel
  shapeCasts_S206x1024_S206x1024 : S206x1024.ShapeCasts S206x1024
  inb_S1x206_S1x206_0_0 : ∀ a, (![0, 0] : Fin 2 → Nat) a + S1x206.size a ≤ S1x206.size a
  h_S1x206 : 0 < S1x206.numel
  shapeCasts_S1x206_S1x206 : S1x206.ShapeCasts S1x206
  broadcasts_S1x206_S128x206 : S1x206.Broadcasts S128x206
  inb_S128x206_S128x206_0_0 : ∀ a, (![0, 0] : Fin 2 → Nat) a + S128x206.size a ≤ S128x206.size a
  h_S128x206 : 0 < S128x206.numel
  dot_S128x875_S2408x875_S128x2408_1_1_0_0_n_n_wf : DotDims.WF S128x875 S2408x875 S128x2408 [1] [1] [0] [0] [] []
  dot_S128x2408_S1024x2408_S128x1024_1_1_0_0_n_n_wf : DotDims.WF S128x2408 S1024x2408 S128x1024 [1] [1] [0] [0] [] []
  dot_S128x1024_S206x1024_S128x206_1_1_0_0_n_n_wf : DotDims.WF S128x1024 S206x1024 S128x206 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x875.size a ≤ S512x875.size a
  hwx0_0 : ∀ i : grid0.Coords, EltTy.bits .f32 = 32 ∨ (Rect.block (s := S512x875) S128x875.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2408x875.size a ≤ S2408x875.size a
  hwx0_1 : ∀ i : grid0.Coords, EltTy.bits .bf16 = 32 ∨ (Rect.block (s := S2408x875) S2408x875.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2408.size a ≤ S1x2408.size a
  hwx0_2 : ∀ i : grid0.Coords, EltTy.bits .f32 = 32 ∨ (Rect.block (s := S1x2408) S1x2408.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2408.size a ≤ S1x2408.size a
  hwx0_3 : ∀ i : grid0.Coords, EltTy.bits .f32 = 32 ∨ (Rect.block (s := S1x2408) S1x2408.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2408.size a ≤ S1x2408.size a
  hwx0_4 : ∀ i : grid0.Coords, EltTy.bits .f32 = 32 ∨ (Rect.block (s := S1x2408) S1x2408.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2408.size a ≤ S1x2408.size a
  hwx0_5 : ∀ i : grid0.Coords, EltTy.bits .f32 = 32 ∨ (Rect.block (s := S1x2408) S1x2408.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2408.size a ≤ S1x2408.size a
  hwx0_6 : ∀ i : grid0.Coords, EltTy.bits .f32 = 32 ∨ (Rect.block (s := S1x2408) S1x2408.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2408.size a ≤ S1x2408.size a
  hwx0_7 : ∀ i : grid0.Coords, EltTy.bits .f32 = 32 ∨ (Rect.block (s := S1x2408) S1x2408.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2408.size a ≤ S1024x2408.size a
  hwx0_8 : ∀ i : grid0.Coords, EltTy.bits .bf16 = 32 ∨ (Rect.block (s := S1024x2408) S1024x2408.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S206x1024.size a ≤ S206x1024.size a
  hwx0_14 : ∀ i : grid0.Coords, EltTy.bits .bf16 = 32 ∨ (Rect.block (s := S206x1024) S206x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x206.size a ≤ S1x206.size a
  hwx0_15 : ∀ i : grid0.Coords, EltTy.bits .f32 = 32 ∨ (Rect.block (s := S1x206) S1x206.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x206.size a ≤ S512x206.size a
  hwx0_16 : ∀ i : grid0.Coords, EltTy.bits .f32 = 32 ∨ (Rect.block (s := S512x206) S128x206.size (cc0_transform_16 i) (hinb0_16 i)).WholeWords (EltTy.packing .f32)

variable [Facts₀]

def dot_S128x875_S2408x875_S128x2408_1_1_0_0_n_n : DotDims S128x875 S2408x875 S128x2408 where
  lhsContracting := [1]
  rhsContracting := [1]
  lhsNonContracting := [0]
  rhsNonContracting := [0]
  lhsBatch := []
  rhsBatch := []
  wf := dot_S128x875_S2408x875_S128x2408_1_1_0_0_n_n_wf
def dot_S128x2408_S1024x2408_S128x1024_1_1_0_0_n_n : DotDims S128x2408 S1024x2408 S128x1024 where
  lhsContracting := [1]
  rhsContracting := [1]
  lhsNonContracting := [0]
  rhsNonContracting := [0]
  lhsBatch := []
  rhsBatch := []
  wf := dot_S128x2408_S1024x2408_S128x1024_1_1_0_0_n_n_wf
def dot_S128x1024_S206x1024_S128x206_1_1_0_0_n_n : DotDims S128x1024 S206x1024 S128x206 where
  lhsContracting := [1]
  rhsContracting := [1]
  lhsNonContracting := [0]
  rhsNonContracting := [0]
  lhsBatch := []
  rhsBatch := []
  wf := dot_S128x1024_S206x1024_S128x206_1_1_0_0_n_n_wf

abbrev win0_0 : Pipeline.Window sig grid0 :=
  Pipeline.Window.ofSpec (Memref.whole main_arg0) S128x875.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2408x875.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2408.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2408.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2408.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2408.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x2408.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x2408.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1024x2408.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S206x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x206.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17) S128x206.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S512x875 : Shape := ⟨2, ![512, 875]⟩
abbrev S2408x875 : Shape := ⟨2, ![2408, 875]⟩
abbrev S2408 : Shape := ⟨1, ![2408]⟩
abbrev S1024x2408 : Shape := ⟨2, ![1024, 2408]⟩
abbrev S1024 : Shape := ⟨1, ![1024]⟩
abbrev S206x1024 : Shape := ⟨2, ![206, 1024]⟩
abbrev S206 : Shape := ⟨1, ![206]⟩
abbrev S_ : Shape := ⟨0, ![]⟩
abbrev S512 : Shape := ⟨1, ![512]⟩
abbrev S512x1 : Shape := ⟨2, ![512, 1]⟩
abbrev S1x2408 : Shape := ⟨2, ![1, 2408]⟩
abbrev S512x2408 : Shape := ⟨2, ![512, 2408]⟩
abbrev S875x2408 : Shape := ⟨2, ![875, 2408]⟩
abbrev S2408x1024 : Shape := ⟨2, ![2408, 1024]⟩
abbrev S512x1024 : Shape := ⟨2, ![512, 1024]⟩
abbrev S1x1024 : Shape := ⟨2, ![1, 1024]⟩
abbrev S1024x206 : Shape := ⟨2, ![1024, 206]⟩
abbrev S512x206 : Shape := ⟨2, ![512, 206]⟩
abbrev S1x206 : Shape := ⟨2, ![1, 206]⟩

abbrev nBuf : Space → Nat
  | .hbm => 83
  | .vmem => 0
  | .smem => 0
  | _ => 0

abbrev bufTy : (tb : Table) → Fin (tcTables nBuf tb) → BufTy
  | .hbm, ⟨0, _⟩ => ⟨S512x875, .f32⟩
  | .hbm, ⟨1, _⟩ => ⟨S2408x875, .f32⟩
  | .hbm, ⟨2, _⟩ => ⟨S2408, .f32⟩
  | .hbm, ⟨3, _⟩ => ⟨S2408, .f32⟩
  | .hbm, ⟨4, _⟩ => ⟨S2408, .f32⟩
  | .hbm, ⟨5, _⟩ => ⟨S2408, .f32⟩
  | .hbm, ⟨6, _⟩ => ⟨S2408, .f32⟩
  | .hbm, ⟨7, _⟩ => ⟨S1024x2408, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S206x1024, .f32⟩
  | .hbm, ⟨14, _⟩ => ⟨S206, .f32⟩
  | .hbm, ⟨15, _⟩ => ⟨S512x875, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S2408x875, .f32⟩
  | .hbm, ⟨20, _⟩ => ⟨S_, .f32⟩
  | .hbm, ⟨21, _⟩ => ⟨S2408, .f32⟩
  | .hbm, ⟨22, _⟩ => ⟨S1x2408, .f32⟩
  | .hbm, ⟨23, _⟩ => ⟨S512x2408, .f32⟩
  | .hbm, ⟨24, _⟩ => ⟨S512x2408, .f32⟩
  | .hbm, ⟨25, _⟩ => ⟨S512x2408, .f32⟩
  | .hbm, ⟨26, _⟩ => ⟨S875x2408, .f32⟩
  | .hbm, ⟨27, _⟩ => ⟨S512x2408, .f32⟩
  | .hbm, ⟨28, _⟩ => ⟨S_, .f32⟩
  | .hbm, ⟨29, _⟩ => ⟨S512x2408, .f32⟩
  | .hbm, ⟨30, _⟩ => ⟨S512x2408, .f32⟩
  | .hbm, ⟨31, _⟩ => ⟨S512x2408, .f32⟩
  | .hbm, ⟨32, _⟩ => ⟨S_, .f32⟩
  | .hbm, ⟨33, _⟩ => ⟨S512x2408, .f32⟩
  | .hbm, ⟨34, _⟩ => ⟨S512x2408, .f32⟩
  | .hbm, ⟨35, _⟩ => ⟨S512x2408, .f32⟩
  | .hbm, ⟨36, _⟩ => ⟨S1x2408, .f32⟩
  | .hbm, ⟨37, _⟩ => ⟨S512x2408, .f32⟩
  | .hbm, ⟨38, _⟩ => ⟨S512x2408, .f32⟩
  | .hbm, ⟨39, _⟩ => ⟨S1x2408, .f32⟩
  | .hbm, ⟨40, _⟩ => ⟨S512x2408, .f32⟩
  | .hbm, ⟨41, _⟩ => ⟨S512x2408, .f32⟩
  | .hbm, ⟨42, _⟩ => ⟨S_, .f32⟩
  | .hbm, ⟨43, _⟩ => ⟨S2408, .f32⟩
  | .hbm, ⟨44, _⟩ => ⟨S2408, .f32⟩
  | .hbm, ⟨45, _⟩ => ⟨S2408, .f32⟩
  | .hbm, ⟨46, _⟩ => ⟨S2408, .f32⟩
  | .hbm, ⟨47, _⟩ => ⟨S1x2408, .f32⟩
  | .hbm, ⟨48, _⟩ => ⟨S512x2408, .f32⟩
  | .hbm, ⟨49, _⟩ => ⟨S512x2408, .f32⟩
  | .hbm, ⟨50, _⟩ => ⟨S1x2408, .f32⟩
  | .hbm, ⟨51, _⟩ => ⟨S512x2408, .f32⟩
  | .hbm, ⟨52, _⟩ => ⟨S512x2408, .f32⟩
  | .hbm, ⟨53, _⟩ => ⟨S_, .f32⟩
  | .hbm, ⟨54, _⟩ => ⟨S512x2408, .f32⟩
  | .hbm, ⟨55, _⟩ => ⟨S512x2408, .f32⟩
  | .hbm, ⟨56, _⟩ => ⟨S2408x1024, .f32⟩
  | .hbm, ⟨57, _⟩ => ⟨S512x1024, .f32⟩
  | .hbm, ⟨58, _⟩ => ⟨S1x1024, .f32⟩
  | .hbm, ⟨59, _⟩ => ⟨S512x1024, .f32⟩
  | .hbm, ⟨60, _⟩ => ⟨S512x1024, .f32⟩
  | .hbm, ⟨61, _⟩ => ⟨S1x1024, .f32⟩
  | .hbm, ⟨62, _⟩ => ⟨S512x1024, .f32⟩
  | .hbm, ⟨63, _⟩ => ⟨S512x1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1x1024, .f32⟩
  | .hbm, ⟨70, _⟩ => ⟨S512x1024, .f32⟩
  | .hbm, ⟨71, _⟩ => ⟨S512x1024, .f32⟩
  | .hbm, ⟨72, _⟩ => ⟨S1x1024, .f32⟩
  | .hbm, ⟨73, _⟩ => ⟨S512x1024, .f32⟩
  | .hbm, ⟨74, _⟩ => ⟨S512x1024, .f32⟩
  | .hbm, ⟨75, _⟩ => ⟨S_, .f32⟩
  | .hbm, ⟨76, _⟩ => ⟨S512x1024, .f32⟩
  | .hbm, ⟨77, _⟩ => ⟨S512x1024, .f32⟩
  | .hbm, ⟨78, _⟩ => ⟨S1024x206, .f32⟩
  | .hbm, ⟨79, _⟩ => ⟨S512x206, .f32⟩
  | .hbm, ⟨80, _⟩ => ⟨S1x206, .f32⟩
  | .hbm, ⟨81, _⟩ => ⟨S512x206, .f32⟩
  | .hbm, ⟨82, _⟩ => ⟨S512x206, .f32⟩
  | _, _ => ⟨S512x875, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  reducesTo_S512x875_S512_d1 : S512x875.ReducesTo [1] S512
  h_S_ : 0 < S_.numel
  bcast_S512_S512x1_0 : S512.BroadcastsInDim S512x1 (![0] : Fin 1 → Fin S512x1.rank)
  reducesTo_S2408x875_S2408_d1 : S2408x875.ReducesTo [1] S2408
  bcast_S2408_S1x2408_1 : S2408.BroadcastsInDim S1x2408 (![1] : Fin 1 → Fin S1x2408.rank)
  bcast_S512x1_S512x2408_0_1 : S512x1.BroadcastsInDim S512x2408 (![0, 1] : Fin 2 → Fin S512x2408.rank)
  bcast_S1x2408_S512x2408_0_1 : S1x2408.BroadcastsInDim S512x2408 (![0, 1] : Fin 2 → Fin S512x2408.rank)
  transposes_S2408x875_S875x2408_1_0 : S2408x875.Transposes [1, 0] S875x2408
  bcast_S_S512x2408 : S_.BroadcastsInDim S512x2408 (![] : Fin 0 → Fin S512x2408.rank)
  bcast_S_S2408 : S_.BroadcastsInDim S2408 (![] : Fin 0 → Fin S2408.rank)
  transposes_S1024x2408_S2408x1024_1_0 : S1024x2408.Transposes [1, 0] S2408x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S1024 : S_.BroadcastsInDim S1024 (![] : Fin 0 → Fin S1024.rank)
  bcast_S_S512x1024 : S_.BroadcastsInDim S512x1024 (![] : Fin 0 → Fin S512x1024.rank)
  transposes_S206x1024_S1024x206_1_0 : S206x1024.Transposes [1, 0] S1024x206
  bcast_S206_S1x206_1 : S206.BroadcastsInDim S1x206 (![1] : Fin 1 → Fin S1x206.rank)
  bcast_S1x206_S512x206_0_1 : S1x206.BroadcastsInDim S512x206 (![0, 1] : Fin 2 → Fin S512x206.rank)
  dot_S512x875_S875x2408_S512x2408_1_0_0_1_n_n_wf : DotDims.WF S512x875 S875x2408 S512x2408 [1] [0] [0] [1] [] []
  dot_S512x2408_S2408x1024_S512x1024_1_0_0_1_n_n_wf : DotDims.WF S512x2408 S2408x1024 S512x1024 [1] [0] [0] [1] [] []
  dot_S512x1024_S1024x206_S512x206_1_0_0_1_n_n_wf : DotDims.WF S512x1024 S1024x206 S512x206 [1] [0] [0] [1] [] []

variable [Facts₀]

def dot_S512x875_S875x2408_S512x2408_1_0_0_1_n_n : DotDims S512x875 S875x2408 S512x2408 where
  lhsContracting := [1]
  rhsContracting := [0]
  lhsNonContracting := [0]
  rhsNonContracting := [1]
  lhsBatch := []
  rhsBatch := []
  wf := dot_S512x875_S875x2408_S512x2408_1_0_0_1_n_n_wf
def dot_S512x2408_S2408x1024_S512x1024_1_0_0_1_n_n : DotDims S512x2408 S2408x1024 S512x1024 where
  lhsContracting := [1]
  rhsContracting := [0]
  lhsNonContracting := [0]
  rhsNonContracting := [1]
  lhsBatch := []
  rhsBatch := []
  wf := dot_S512x2408_S2408x1024_S512x1024_1_0_0_1_n_n_wf
def dot_S512x1024_S1024x206_S512x206_1_0_0_1_n_n : DotDims S512x1024 S1024x206 S512x206 where
  lhsContracting := [1]
  rhsContracting := [0]
  lhsNonContracting := [0]
  rhsNonContracting := [1]
  lhsBatch := []
  rhsBatch := []
  wf := dot_S512x1024_S1024x206_S512x206_1_0_0_1_n_n_wf

class Facts : Prop extends Facts₀ where

variable [Facts]
-- ==== Proof.RbfSpec.lean ====
/-
  A radial-basis layer followed by a two-layer head with normalisation, on the extended reals.

  For one input row  x  (K numbers) and centres  c_1 … c_C  (rows of a [C, K] array) the radial-basis unit  c  is
      d_c = sqrt( max( |x|² + |c_c|² − 2·⟨x, c_c⟩ , 0 ) ) · σ_c ,
  the Euclidean distance from  x  to  c_c  (by the expansion of the square) times a width. A normalised, rectified
  layer sends a pre-activation  z  to   max( (z − μ)·(γ·(v + ε)^(−1/2)) + β , 0 ) ;  an affine layer sends a row  h  to
  Σ_k h_k·W(j, k) + b_j . The head is  affine ∘ rectified-normalised ∘ affine ∘ rectified-normalised ∘ radial-basis.

  The one law used between two spellings of the scale  γ·(v + ε)^(−1/2) :  for  0 < y  (y = +∞ allowed),
      γ · rsqrt y = γ / sqrt y
  on the extended reals. For  y ≤ 0  the two sides differ (the reciprocal square root of zero is +∞ and of a negative
  number the junk value −∞, while the quotient by zero takes the sign of γ and the quotient by −∞ is zero), which is
  why the statement is made under  0 < v + ε .
-/
import Idealize.ShloMosaic.PureOps.Ideal.Laws
import Idealize.ShloMosaic.Lib.ValueIdx

noncomputable section

open scoped BigOperators

namespace Cert.RbfHead

open Idealize.ShloMosaic Idealize.ShloMosaic.ValueIdx

/-- An [R, C] array and a length-C vector of extended reals. -/
abbrev Mat (R C : ℕ) : Type := (⟨2, ![R, C]⟩ : Shape).Idx → EReal
abbrev Row (C : ℕ) : Type := (⟨1, ![C]⟩ : Shape).Idx → EReal

/-- The three float literals of the computation, kept as their words: the variance offset ε, the factor 2, and 0. -/
abbrev eps : EReal := Ideal.ofBits .f32 0x3727C5AC#32
abbrev two : EReal := Ideal.ofBits .f32 0x40000000#32
abbrev zer : EReal := Ideal.ofBits .f32 0x00000000#32

/-- The radial-basis unit from the three inner products: sqrt(max(|x|² + |c|² − 2⟨x,c⟩, 0))·σ. -/
def distOf (x2 c2 d s : EReal) : EReal := Ideal.sqrt (max (x2 + c2 - two * d) zer) * s

/-- The normalisation's scale γ·(v + ε)^(−1/2). -/
def scale (g v : EReal) : EReal := g * Ideal.rsqrt (v + eps)

/-- The first hidden layer at unit c: the radial-basis unit, normalised and rectified. The squared norms of the
    centres come as a vector. -/
def hidden1 {K C : ℕ} (x : Fin K → EReal) (Cn : Mat C K) (c2 sg g be mu va : Fin C → EReal) (c : Fin C) : EReal :=
  max ((distOf (∑ f, x f * x f) (c2 c) (∑ f, x f * Cn (ix2 c f)) (sg c) - mu c) * scale (g c) (va c) + be c) zer

/-- An affine layer with output-major weights: Σ_k h_k·W(j, k) + b_j. -/
def affine {K C : ℕ} (h : Fin K → EReal) (W : Mat C K) (b : Fin C → EReal) (j : Fin C) : EReal :=
  (∑ k, h k * W (ix2 j k)) + b j

/-- The second hidden layer at unit j: an affine layer, normalised and rectified. -/
def hidden2 {K C : ℕ} (h : Fin K → EReal) (W : Mat C K) (b g be mu va : Fin C → EReal) (j : Fin C) : EReal :=
  max ((affine h W b j - mu j) * scale (g j) (va j) + be j) zer

/-- The squared norm of row c of an array. -/
def sqNorm {C K : ℕ} (Cn : Mat C K) (c : Fin C) : EReal := ∑ f, Cn (ix2 c f) * Cn (ix2 c f)

/-- The whole head at one input row and one output unit, the centres' squared norms given as a vector. -/
def head {K C H O : ℕ} (x : Fin K → EReal) (Cn : Mat C K) (c2 sg g1 be1 mu1 va1 : Fin C → EReal)
    (W1 : Mat H C) (b1 g2 be2 mu2 va2 : Fin H → EReal) (W2 : Mat O H) (b2 : Fin O → EReal) (o : Fin O) : EReal :=
  affine (hidden2 (hidden1 x Cn c2 sg g1 be1 mu1 va1) W1 b1 g2 be2 mu2 va2) W2 b2 o

/-- The result array: the head of every input row. -/
def result {B K C H O : ℕ} (X : Mat B K) (Cn : Mat C K) (sg g1 be1 mu1 va1 : Row C)
    (W1 : Mat H C) (b1 g2 be2 mu2 va2 : Row H) (W2 : Mat O H) (b2 : Row O) : Mat B O := fun i =>
  head (fun f => X (ix2 (i 0) f)) Cn (sqNorm Cn) (fun c => sg (ix1 c)) (fun c => g1 (ix1 c)) (fun c => be1 (ix1 c))
    (fun c => mu1 (ix1 c)) (fun c => va1 (ix1 c)) W1 (fun j => b1 (ix1 j)) (fun j => g2 (ix1 j))
    (fun j => be2 (ix1 j)) (fun j => mu2 (ix1 j)) (fun j => va2 (ix1 j)) W2 (fun o => b2 (ix1 o)) (i 1)

/-- For 0 < y the product with the reciprocal square root is the quotient by the square root. At y = +∞ both are
    γ·0; at a positive real both are γ·(√y)⁻¹. -/
theorem mul_rsqrt_eq_div_sqrt (g y : EReal) (hy : 0 < y) : g * Ideal.rsqrt y = Ideal.div g (Ideal.sqrt y) := by
  induction y using EReal.rec with
  | bot => exact absurd hy (by simp)
  | top =>
    show g * 0 = Ideal.div g ⊤
    unfold Ideal.div
    rw [if_neg (by simp), EReal.inv_top]
  | coe r =>
    have hr : 0 < r := by exact_mod_cast hy
    have hs : Real.sqrt r ≠ 0 := (Real.sqrt_pos.mpr hr).ne'
    rw [Ideal.rsqrt_coe, if_neg (not_lt.mpr hr.le), if_neg hr.ne']
    show _ = Ideal.div g (if r < 0 then ⊥ else ((Real.sqrt r : ℝ) : EReal))
    rw [if_neg (not_lt.mpr hr.le)]
    unfold Ideal.div
    rw [if_neg (by exact_mod_cast hs), ← EReal.coe_inv]

/-- The scale, spelt as a quotient by the square root, under 0 < v + ε. -/
theorem scale_eq_div (g v : EReal) (hv : 0 < v + eps) : Ideal.div g (Ideal.sqrt (v + eps)) = scale g v :=
  (mul_rsqrt_eq_div_sqrt g (v + eps) hv).symm

end Cert.RbfHead

end
-- ==== Proof.LibRowsProduct.lean ====
/-
  The product of an [R, K] array with the transpose of a [C, K] array — both operands contracted along their axis 1,
  no batch axes — read at (r, c) on the extended reals: the sum over k of  lhs(r, k) · rhs(c, k) . With the two operands
  one array this is the Gram matrix of its rows. It holds for the matrix unit's product into a zero accumulator and for
  the host's general product alike: both are the same sum over the one-axis contraction index, re-indexed here by its
  one coordinate.
-/
import Idealize.ShloMosaic.PureOps.Ideal.Laws
import Idealize.ShloMosaic.Lib.ValueIdx

noncomputable section

open scoped BigOperators

namespace Cert.LibRowsProduct

open Idealize.ShloMosaic Idealize.ShloMosaic.ValueIdx

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- The left operand's row is the result's row. -/
theorem lhsIdx_row {R K C : ℕ} (d : DotDims ⟨2, ![R, K]⟩ ⟨2, ![C, K]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- The right operand's row is the result's column. -/
theorem rhsIdx_row {R K C : ℕ} (d : DotDims ⟨2, ![R, K]⟩ ⟨2, ![C, K]⟩ ⟨2, ![R, C]⟩)
    (h3 : d.lhsNonContracting = [0]) (h4 : d.rhsNonContracting = [0]) (h5 : d.lhsBatch = []) (h6 : d.rhsBatch = [])
    (j : (⟨2, ![R, C]⟩ : Shape).Idx) (k : d.contr.Idx) : (d.rhsIdx j k 0).val = (j 1).val := by
  have hb : (0 : Fin 2) ∉ d.rhsBatch := by rw [h6]; exact List.not_mem_nil
  have hn : (0 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over the one-axis contraction index, as the sum over k of  lhs(r, k) · rhs(c, k) . -/
theorem contr_sum {R K C : ℕ} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (lhs : (⟨2, ![R, K]⟩ : Shape).Idx → EReal) (rhs : (⟨2, ![C, K]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 c k) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k), the right one at (c, k)
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  have er : d.rhsIdx (ix2 r c) ((contrEquiv1 d K hr hs).symm k) = ix2 c k := by
    funext a
    match a with
    | ⟨0, _⟩ => exact Fin.ext (rhsIdx_row d h3 h4 h5 h6 (ix2 r c) _)
    | ⟨1, _⟩ => exact Fin.ext ((d.rhsIdx_val_of_single h2 (ix2 r c) _).trans hk)
  rw [el, er]

/-- The matrix unit's product into a zero accumulator, at (r, c). -/
theorem matmul_zero_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    matmul d prec lhs rhs (constant ⟨2, ![R, C]⟩ .f32 0x00000000#32) (ix2 r c)
      = ∑ k : Fin K, lhs (ix2 r k) * rhs (ix2 c k) := by
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    Host.dotGeneral d prec lhs rhs (ix2 r c) = ∑ k : Fin K, lhs (ix2 r k) * rhs (ix2 c k) := by
  simp only [Host.dotGeneral]
  rw [Ideal.dotGeneral_apply]
  exact contr_sum d h1 h2 h3 h4 h5 h6 lhs rhs r c

end Cert.LibRowsProduct

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.KernelLayers.lean ====
/-
  The kernel body's arithmetic, read at an entry of a block of 128 input rows. From the loaded block  x  of input rows,
  the centres, the row of the centres' squared norms and the per-unit rows, entry (r, c) of the first stored value is
      ( distOf(Σ_f x(r,f)², c2_c, Σ_f x(r,f)·centre(c,f), σ_c) − μ_c ) · scale(γ_c, v_c) ,
  the radial-basis unit of row r, centred and scaled; and from that value  H  entry (r, o) of the second is
      Σ_j hidden2( c ↦ max(H(r,c) + β_c, 0) , W1, … )(j) · W2(o, j) ,
  the second hidden layer of row r through the output weights. A row statistic kept as a column spreads over the
  columns, a [1, C] row spreads over the rows, a change of float format is the identity, and each product into a zero
  accumulator is the sum over the contracted axis.
-/
import proofs.«163585_j75797582840427_1_alg».proof.Proof.Gen.KernelIdeal.Skeleton
import proofs.«163585_j75797582840427_1_alg».proof.Proof.RbfSpec
import proofs.«163585_j75797582840427_1_alg».proof.Proof.LibRowsProduct
import proofs.«163585_j75797582840427_1_alg».proof.Proof.LibKeepdimsColumn
import proofs.«163585_j75797582840427_1_alg».proof.Proof.LibBiasRow
import Idealize.ShloMosaic.Lib.Pipeline.Value

noncomputable section

open scoped BigOperators

namespace Cert.RbfHead.Kern

open Cert.KernelIdeal Cert.KernelIdeal.Gen Idealize.ShloMosaic Idealize.ShloMosaic.ValueIdx Cert.RbfHead

theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl

/-- A [1, C] row, cast to its own shape and spread over R rows, at (r, c). -/
theorem row_apply {R C : ℕ} {α : Type} (v : (⟨2, ![1, C]⟩ : Shape).Idx → α)
    (hs : (⟨2, ![1, C]⟩ : Shape).ShapeCasts ⟨2, ![1, C]⟩) (hb : (⟨2, ![1, C]⟩ : Shape).Broadcasts ⟨2, ![R, C]⟩)
    (r : Fin R) (c : Fin C) :
    broadcastTo ⟨2, ![R, C]⟩ (shapeCast ⟨2, ![1, C]⟩ v hs) hb (ix2 r c) = v (ix2 (0 : Fin 1) c) := by
  rw [shapeCast_self]
  exact Cert.BiasRow.stretch_row_apply hb v r c

/-- The sum of a row's squares kept as a column and spread over C columns, at (r, c). -/
theorem rowSq_apply (x : FVec Ideal S128x875 .f32) (h1 : S128x875.Reduces [1] S128) (hφ : FKind.Formats .f32)
    (hacc : (0x00000000#32 : BitVec 32) = 0x00000000#32) (h2 : S128.ShapeCasts S128x1)
    (h3 : S128x1.Broadcasts S128x2408) (r : Fin 128) (c : Fin 2408) :
    broadcastTo S128x2408 (shapeCast S128x1 (multiReduction .add [1] S128 (mulf x x) 0x00000000#32 h1 hφ hacc) h2) h3
      (ix2 r c) = ∑ f : Fin 875, x (ix2 r f) * x (ix2 r f) := by
  rw [Cert.LibKeepdimsColumn.broadcastTo_a1_ab_apply, Cert.LibKeepdimsColumn.shapeCast_a_a1_apply,
    Cert.LibKeepdimsColumn.rowSum_apply]
  rfl

/-- The first stored value at (r, c): the radial-basis unit of row r, centred and scaled. -/
theorem pay2_apply (P0 : FVec Ideal S128x875 .f32) (P1 : FVec Ideal S2408x875 .bf16)
    (P2 P3 P4 P5 P6 : FVec Ideal S1x2408 .f32) (r : Fin 128) (c : Fin 2408) :
    k0_pay2 (F := Ideal) P0 P1 P2 P3 P4 P5 P6 (ix2 r c)
      = (distOf (∑ f, P0 (ix2 r f) * P0 (ix2 r f)) (P2 (ix2 (0 : Fin 1) c)) (∑ f, P0 (ix2 r f) * P1 (ix2 c f))
            (P3 (ix2 (0 : Fin 1) c)) - P6 (ix2 (0 : Fin 1) c))
          * scale (P4 (ix2 (0 : Fin 1) c)) (P5 (ix2 (0 : Fin 1) c)) := by
  have hm : ∀ (hb : FTy.bits .bf16 < FTy.bits .f32),
      matmul dot_S128x875_S2408x875_S128x2408_1_1_0_0_n_n none (truncf .bf16 P0 hb) P1
        (constant S128x2408 .f32 0x00000000#32) (ix2 r c) = ∑ f : Fin 875, P0 (ix2 r f) * P1 (ix2 c f) := fun hb =>
    Cert.LibRowsProduct.matmul_zero_apply dot_S128x875_S2408x875_S128x2408_1_1_0_0_n_n rfl rfl rfl rfl rfl rfl
      none (truncf .bf16 P0 hb) P1 r c
  have hx : broadcastTo S128x2408 (shapeCast S128x1 (multiReduction .add [1] S128 (mulf P0 P0) 0x00000000#32
        reduces_S128x875_S128 (.inl rfl) rfl) shapeCasts_S128_S128x1) broadcasts_S128x1_S128x2408 (ix2 r c)
      = ∑ f : Fin 875, P0 (ix2 r f) * P0 (ix2 r f) := rowSq_apply P0 _ _ _ _ _ r c
  unfold k0_pay2
  simp only [mulf_apply, subf_apply, addf_apply, maximumf_apply, sqrt_apply, rsqrt_apply, broadcast_apply,
    Cert.BiasRow.stretch_row_apply, shapeCast_self, hm, hx]
  rfl

/-- The second stored value at (r, o), from the first one H: the second hidden layer of row r through the output
    weights. -/
theorem pay3_apply (H : FVec Ideal S128x2408 .f32) (P7 : FVec Ideal S1x2408 .f32) (P8 : FVec Ideal S1024x2408 .bf16)
    (P9 P10 P11 P12 P13 : FVec Ideal S1x1024 .f32) (P14 : FVec Ideal S206x1024 .bf16) (r : Fin 128) (o : Fin 206) :
    k0_pay3 (F := Ideal) H P7 P8 P9 P10 P11 P12 P13 P14 (ix2 r o)
      = ∑ j : Fin 1024,
          hidden2 (fun c : Fin 2408 => max (H (ix2 r c) + P7 (ix2 (0 : Fin 1) c)) zer) P8
            (fun j => P9 (ix2 (0 : Fin 1) j)) (fun j => P10 (ix2 (0 : Fin 1) j)) (fun j => P13 (ix2 (0 : Fin 1) j))
            (fun j => P12 (ix2 (0 : Fin 1) j)) (fun j => P11 (ix2 (0 : Fin 1) j)) j * P14 (ix2 o j) := by
  have hm1 : ∀ (A : FVec Ideal S128x2408 .f32) (hb : FTy.bits .bf16 < FTy.bits .f32)
      (j : Fin 1024),
      matmul dot_S128x2408_S1024x2408_S128x1024_1_1_0_0_n_n none (truncf .bf16 A hb) P8
        (constant S128x1024 .f32 0x00000000#32) (ix2 r j) = ∑ c : Fin 2408, A (ix2 r c) * P8 (ix2 j c) := fun A hb j =>
    Cert.LibRowsProduct.matmul_zero_apply dot_S128x2408_S1024x2408_S128x1024_1_1_0_0_n_n rfl rfl rfl rfl rfl rfl
      none (truncf .bf16 A hb) P8 r j
  have hm2 : ∀ (A : FVec Ideal S128x1024 .f32) (hb : FTy.bits .bf16 < FTy.bits .f32),
      matmul dot_S128x1024_S206x1024_S128x206_1_1_0_0_n_n none (truncf .bf16 A hb) P14
        (constant S128x206 .f32 0x00000000#32) (ix2 r o) = ∑ j : Fin 1024, A (ix2 r j) * P14 (ix2 o j) := fun A hb =>
    Cert.LibRowsProduct.matmul_zero_apply dot_S128x1024_S206x1024_S128x206_1_1_0_0_n_n rfl rfl rfl rfl rfl rfl
      none (truncf .bf16 A hb) P14 r o
  unfold k0_pay3
  simp only [hm2, hm1, mulf_apply, subf_apply, addf_apply, maximumf_apply, rsqrt_apply, broadcast_apply,
    Cert.BiasRow.stretch_row_apply, shapeCast_self, truncf_apply]
  rfl

end Cert.RbfHead.Kern

end
-- ==== Proof.KernelValue.lean ====
/-
  What the kernel's result array holds after the run, on the extended reals.

  The grid has four points; point t stages rows 128·t … 128·t + 127 of the input, the whole of every other operand, and
  writes back rows 128·t … 128·t + 127 of the result. The host operations before the launch give the kernel the centres
  and the two weight arrays unchanged (a change of float format), the squared norm of every centre, and every
  per-unit vector as a one-row array. The body's stored block at (r, o) is the head of input row 128·t + r at output
  unit o, so each written block is that block of the result array of RbfSpec.lean, and the four blocks cover it.
-/
import proofs.«163585_j75797582840427_1_alg».proof.Proof.Gen.KernelIdeal.Value
import proofs.«163585_j75797582840427_1_alg».proof.Proof.KernelLayers
import Idealize.ShloMosaic.Lib.StableHlo.Run
import Idealize.ShloMosaic.Lib.Tactic

set_option maxRecDepth 16384

noncomputable section

open scoped BigOperators

namespace Cert.RbfHead.KernelValue

open Cert.KernelIdeal Cert.KernelIdeal.Gen Cert.KernelIdeal.Value Idealize.ShloMosaic Idealize.ShloMosaic.TcCoe
open Idealize.SL.Sem Idealize.ShloMosaic.ValueIdx Cert.RbfHead
open Idealize.ShloMosaic.Pipeline (Dat)

variable (m : (ℓ : Loc nD τ sig) → Buf (Elt Ideal) ℓ) (ρ : Dev nD → PrngReg)

/-! ## The arrays the launch finds -/

/-- A per-unit vector reaches the kernel as a one-row array: the entry (0, k) is the vector's entry k. -/
theorem V_v6 (c : Dev nD) (k : Fin 2408) :
    (V m c main_v6 : S1x2408.Idx → EReal) (ix2 (0 : Fin 1) k) = m ((c : Thread nD τ).loc main_arg2) (ix1 k) := by
  have e : (V m c main_v6 : S1x2408.Idx → EReal)
      = shapeCast S1x2408 (m ((c : Thread nD τ).loc main_arg2)) shapeCasts_S2408_S1x2408 := by
    dsimp only [V, hostOps0]; after_results; rfl
  rw [e]; exact Cert.BiasRow.cast_row_apply _ _ k
theorem V_v7 (c : Dev nD) (k : Fin 2408) :
    (V m c main_v7 : S1x2408.Idx → EReal) (ix2 (0 : Fin 1) k) = m ((c : Thread nD τ).loc main_arg3) (ix1 k) := by
  have e : (V m c main_v7 : S1x2408.Idx → EReal)
      = shapeCast S1x2408 (m ((c : Thread nD τ).loc main_arg3)) shapeCasts_S2408_S1x2408 := by
    dsimp only [V, hostOps0]; after_results; rfl
  rw [e]; exact Cert.BiasRow.cast_row_apply _ _ k
theorem V_v8 (c : Dev nD) (k : Fin 2408) :
    (V m c main_v8 : S1x2408.Idx → EReal) (ix2 (0 : Fin 1) k) = m ((c : Thread nD τ).loc main_arg4) (ix1 k) := by
  have e : (V m c main_v8 : S1x2408.Idx → EReal)
      = shapeCast S1x2408 (m ((c : Thread nD τ).loc main_arg4)) shapeCasts_S2408_S1x2408 := by
    dsimp only [V, hostOps0]; after_results; rfl
  rw [e]; exact Cert.BiasRow.cast_row_apply _ _ k
theorem V_v9 (c : Dev nD) (k : Fin 2408) :
    (V m c main_v9 : S1x2408.Idx → EReal) (ix2 (0 : Fin 1) k) = m ((c : Thread nD τ).loc main_arg5) (ix1 k) := by
  have e : (V m c main_v9 : S1x2408.Idx → EReal)
      = shapeCast S1x2408 (m ((c : Thread nD τ).loc main_arg5)) shapeCasts_S2408_S1x2408 := by
    dsimp only [V, hostOps0]; after_results; rfl
  rw [e]; exact Cert.BiasRow.cast_row_apply _ _ k
theorem V_v10 (c : Dev nD) (k : Fin 2408) :
    (V m c main_v10 : S1x2408.Idx → EReal) (ix2 (0 : Fin 1) k) = m ((c : Thread nD τ).loc main_arg6) (ix1 k) := by
  have e : (V m c main_v10 : S1x2408.Idx → EReal)
      = shapeCast S1x2408 (m ((c : Thread nD τ).loc main_arg6)) shapeCasts_S2408_S1x2408 := by
    dsimp only [V, hostOps0]; after_results; rfl
  rw [e]; exact Cert.BiasRow.cast_row_apply _ _ k
theorem V_v11 (c : Dev nD) (k : Fin 1024) :
    (V m c main_v11 : S1x1024.Idx → EReal) (ix2 (0 : Fin 1) k) = m ((c : Thread nD τ).loc main_arg8) (ix1 k) := by
  have e : (V m c main_v11 : S1x1024.Idx → EReal)
      = shapeCast S1x1024 (m ((c : Thread nD τ).loc main_arg8)) shapeCasts_S1024_S1x1024 := by
    dsimp only [V, hostOps0]; after_results; rfl
  rw [e]; exact Cert.BiasRow.cast_row_apply _ _ k
theorem V_v12 (c : Dev nD) (k : Fin 1024) :
    (V m c main_v12 : S1x1024.Idx → EReal) (ix2 (0 : Fin 1) k) = m ((c : Thread nD τ).loc main_arg9) (ix1 k) := by
  have e : (V m c main_v12 : S1x1024.Idx → EReal)
      = shapeCast S1x1024 (m ((c : Thread nD τ).loc main_arg9)) shapeCasts_S1024_S1x1024 := by
    dsimp only [V, hostOps0]; after_results; rfl
  rw [e]; exact Cert.BiasRow.cast_row_apply _ _ k
theorem V_v13 (c : Dev nD) (k : Fin 1024) :
    (V m c main_v13 : S1x1024.Idx → EReal) (ix2 (0 : Fin 1) k) = m ((c : Thread nD τ).loc main_arg10) (ix1 k) := by
  have e : (V m c main_v13 : S1x1024.Idx → EReal)
      = shapeCast S1x1024 (m ((c : Thread nD τ).loc main_arg10)) shapeCasts_S1024_S1x1024 := by
    dsimp only [V, hostOps0]; after_results; rfl
  rw [e]; exact Cert.BiasRow.cast_row_apply _ _ k
theorem V_v14 (c : Dev nD) (k : Fin 1024) :
    (V m c main_v14 : S1x1024.Idx → EReal) (ix2 (0 : Fin 1) k) = m ((c : Thread nD τ).loc main_arg11) (ix1 k) := by
  have e : (V m c main_v14 : S1x1024.Idx → EReal)
      = shapeCast S1x1024 (m ((c : Thread nD τ).loc main_arg11)) shapeCasts_S1024_S1x1024 := by
    dsimp only [V, hostOps0]; after_results; rfl
  rw [e]; exact Cert.BiasRow.cast_row_apply _ _ k
theorem V_v15 (c : Dev nD) (k : Fin 1024) :
    (V m c main_v15 : S1x1024.Idx → EReal) (ix2 (0 : Fin 1) k) = m ((c : Thread nD τ).loc main_arg12) (ix1 k) := by
  have e : (V m c main_v15 : S1x1024.Idx → EReal)
      = shapeCast S1x1024 (m ((c : Thread nD τ).loc main_arg12)) shapeCasts_S1024_S1x1024 := by
    dsimp only [V, hostOps0]; after_results; rfl
  rw [e]; exact Cert.BiasRow.cast_row_apply _ _ k
theorem V_v16 (c : Dev nD) (k : Fin 206) :
    (V m c main_v16 : S1x206.Idx → EReal) (ix2 (0 : Fin 1) k) = m ((c : Thread nD τ).loc main_arg14) (ix1 k) := by
  have e : (V m c main_v16 : S1x206.Idx → EReal)
      = shapeCast S1x206 (m ((c : Thread nD τ).loc main_arg14)) shapeCasts_S206_S1x206 := by
    dsimp only [V, hostOps0]; after_results; rfl
  rw [e]; exact Cert.BiasRow.cast_row_apply _ _ k

/-- The centres and the two weight arrays reach the kernel unchanged: the change of float format is the identity. -/
theorem V_v3 (c : Dev nD) : (V m c main_v3 : S2408x875.Idx → EReal) = m ((c : Thread nD τ).loc main_arg1) := by
  dsimp only [V, hostOps0]; after_results; rfl
theorem V_v4 (c : Dev nD) : (V m c main_v4 : S1024x2408.Idx → EReal) = m ((c : Thread nD τ).loc main_arg7) := by
  dsimp only [V, hostOps0]; after_results; rfl
theorem V_v5 (c : Dev nD) : (V m c main_v5 : S206x1024.Idx → EReal) = m ((c : Thread nD τ).loc main_arg13) := by
  dsimp only [V, hostOps0]; after_results; rfl

/-- The row of squared norms the host computes: its entry (0, k) is the squared norm of centre k. -/
theorem V_v2 (c : Dev nD) (k : Fin 2408) :
    (V m c main_v2 : S1x2408.Idx → EReal) (ix2 (0 : Fin 1) k) = sqNorm (m ((c : Thread nD τ).loc main_arg1)) k := by
  have e : (V m c main_v2 : S1x2408.Idx → EReal)
      = shapeCast S1x2408 (Host.reduceAdd (F := Ideal) (mulf (m ((c : Thread nD τ).loc main_arg1)) (m ((c : Thread nD τ).loc main_arg1)))
          (constant (F := Ideal) S_ .f32 0x00000000#32) reducesTo_S2408x875_S2408_d1 h_S_) shapeCasts_S2408_S1x2408 := by
    dsimp only [V, hostOps0]; after_results; rfl
  rw [e, Cert.BiasRow.cast_row_apply]
  simp only [Host.reduceAdd, Ideal.hostReduceAdd_def]
  rw [Ideal.hostReduceAdd_single reducesTo_S2408x875_S2408_d1 (by decide)]
  show Ideal.ofBits .f32 0x00000000#32 + _ = _
  rw [Ideal.ofBits_zero_f32, zero_add]
  refine Finset.sum_congr rfl fun f _ => ?_
  have ei : (by decide : S2408x875.Reduces [1] S2408).lift (ix1 k) f = ix2 k f :=
    funext fun a => Fin.ext (by match a with | ⟨0, _⟩ => rfl | ⟨1, _⟩ => rfl)
  rw [ei]; rfl

/-! ## The windows' blocks -/

/-- A window that stages its whole array at every point: its block is the array. -/
local macro "resident_block" b:term : tactic => `(tactic| (
  funext x
  unfold iblk
  rw [View.read_apply]
  show V _ _ $b _ = V _ _ $b x
  refine congrArg _ (funext fun a => Fin.ext ?_)
  match a with
  | ⟨0, _⟩ => show 0 * _ + 1 * (x 0).val = (x 0).val; omega
  | ⟨1, _⟩ => show 0 * _ + 1 * (x 1).val = (x 1).val; omega))

theorem iblk1 (c : Dev nD) (t : Fin cfg0.N) : (iblk m c 1 t : Vec Ideal S2408x875 .bf16) = V m c main_v3 := by
  resident_block main_v3
theorem iblk2 (c : Dev nD) (t : Fin cfg0.N) : (iblk m c 2 t : Vec Ideal S1x2408 .f32) = V m c main_v2 := by
  resident_block main_v2
theorem iblk3 (c : Dev nD) (t : Fin cfg0.N) : (iblk m c 3 t : Vec Ideal S1x2408 .f32) = V m c main_v6 := by
  resident_block main_v6
theorem iblk4 (c : Dev nD) (t : Fin cfg0.N) : (iblk m c 4 t : Vec Ideal S1x2408 .f32) = V m c main_v7 := by
  resident_block main_v7
theorem iblk5 (c : Dev nD) (t : Fin cfg0.N) : (iblk m c 5 t : Vec Ideal S1x2408 .f32) = V m c main_v8 := by
  resident_block main_v8
theorem iblk6 (c : Dev nD) (t : Fin cfg0.N) : (iblk m c 6 t : Vec Ideal S1x2408 .f32) = V m c main_v9 := by
  resident_block main_v9
theorem iblk7 (c : Dev nD) (t : Fin cfg0.N) : (iblk m c 7 t : Vec Ideal S1x2408 .f32) = V m c main_v10 := by
  resident_block main_v10
theorem iblk8 (c : Dev nD) (t : Fin cfg0.N) : (iblk m c 8 t : Vec Ideal S1024x2408 .bf16) = V m c main_v4 := by
  resident_block main_v4
theorem iblk9 (c : Dev nD) (t : Fin cfg0.N) : (iblk m c 9 t : Vec Ideal S1x1024 .f32) = V m c main_v11 := by
  resident_block main_v11
theorem iblk10 (c : Dev nD) (t : Fin cfg0.N) : (iblk m c 10 t : Vec Ideal S1x1024 .f32) = V m c main_v12 := by
  resident_block main_v12
theorem iblk11 (c : Dev nD) (t : Fin cfg0.N) : (iblk m c 11 t : Vec Ideal S1x1024 .f32) = V m c main_v13 := by
  resident_block main_v13
theorem iblk12 (c : Dev nD) (t : Fin cfg0.N) : (iblk m c 12 t : Vec Ideal S1x1024 .f32) = V m c main_v14 := by
  resident_block main_v14
theorem iblk13 (c : Dev nD) (t : Fin cfg0.N) : (iblk m c 13 t : Vec Ideal S1x1024 .f32) = V m c main_v15 := by
  resident_block main_v15
theorem iblk14 (c : Dev nD) (t : Fin cfg0.N) : (iblk m c 14 t : Vec Ideal S206x1024 .bf16) = V m c main_v5 := by
  resident_block main_v5
theorem iblk15 (c : Dev nD) (t : Fin cfg0.N) : (iblk m c 15 t : Vec Ideal S1x206 .f32) = V m c main_v16 := by
  resident_block main_v16

/-- The block index of the input's and of the result's window at point t: (t, 0). -/
theorem idx_facts : ∀ t : Fin cfg0.N, win0_0.index t (0 : Fin 2) = t.val ∧ win0_0.index t (1 : Fin 2) = 0
    ∧ win0_16.index t (0 : Fin 2) = t.val ∧ win0_16.index t (1 : Fin 2) = 0 :=
  (by decide +kernel : ∀ t : Fin grid0.N, _)

/-- Row r of the input's block at point t is row 128·t + r of the input. -/
theorem iblk0_apply (c : Dev nD) (t : Fin cfg0.N) (x : S128x875.Idx) (k : S512x875.Idx)
    (hk0 : (k 0).val = 128 * t.val + (x 0).val) (hk1 : (k 1).val = (x 1).val) :
    (iblk m c 0 t : Vec Ideal S128x875 .f32) x = (m ((c : Thread nD τ).loc main_arg0) : S512x875.Idx → EReal) k := by
  obtain ⟨e0, e1, -, -⟩ := idx_facts t
  unfold iblk
  rw [View.read_apply]
  show V m c main_arg0 _ = m (c.tc.loc main_arg0) k
  rw [V_main_arg0]
  refine congrArg _ (funext fun a => Fin.ext ?_)
  match a with
  | ⟨0, _⟩ => show win0_0.index t (0 : Fin 2) * 128 + 1 * (x 0).val = (k 0).val; omega
  | ⟨1, _⟩ => show win0_0.index t (1 : Fin 2) * 875 + 1 * (x 1).val = (k 1).val; omega

/-! ## What a point writes back -/

theorem hz : (![0, 0] : Fin 2 → Nat) = fun _ => 0 := funext fun a => by fin_cases a <;> rfl

/-- What the body leaves in the result's buffer, at (r, o): the head of the staged block's row r at output unit o, the
    per-unit vectors read off their one-row arrays. -/
theorem out_apply (x0 : Vec Ideal S128x875 .f32) (x1 : Vec Ideal S2408x875 .bf16)
    (x2 x3 x4 x5 x6 x7 : Vec Ideal S1x2408 .f32) (x8 : Vec Ideal S1024x2408 .bf16)
    (x9 x10 x11 x12 x13 : Vec Ideal S1x1024 .f32) (x14 : Vec Ideal S206x1024 .bf16) (x15 : Vec Ideal S1x206 .f32)
    (r : Fin 128) (o : Fin 206) :
    out0_16 x0 x1 x2 x3 x4 x5 x6 x7 x8 x9 x10 x11 x12 x13 x14 x15 (ix2 r o)
      = head (fun f => x0 (ix2 r f)) x1 (fun k => x2 (ix2 (0 : Fin 1) k)) (fun k => x3 (ix2 (0 : Fin 1) k))
          (fun k => x4 (ix2 (0 : Fin 1) k)) (fun k => x5 (ix2 (0 : Fin 1) k)) (fun k => x6 (ix2 (0 : Fin 1) k))
          (fun k => x7 (ix2 (0 : Fin 1) k)) x8 (fun k => x9 (ix2 (0 : Fin 1) k)) (fun k => x10 (ix2 (0 : Fin 1) k))
          (fun k => x11 (ix2 (0 : Fin 1) k)) (fun k => x12 (ix2 (0 : Fin 1) k)) (fun k => x13 (ix2 (0 : Fin 1) k)) x14
          (fun k => x15 (ix2 (0 : Fin 1) k)) o := by
  have i0 : ix16_0 (ix2 r o) = ix2 r o :=
    funext fun a => Fin.ext (by match a with | ⟨0, _⟩ => rfl | ⟨1, _⟩ => rfl)
  have i1 : ix16_1 (ix2 r o) = ix2 (0 : Fin 1) o :=
    funext fun a => Fin.ext (by match a with | ⟨0, _⟩ => rfl | ⟨1, _⟩ => rfl)
  unfold out0_16
  simp only [View.ld_unit_zero (S := S128x875) hz, View.ld_unit_zero (S := S2408x875) hz,
    View.ld_unit_zero (S := S1x2408) hz, View.ld_unit_zero (S := S1024x2408) hz, View.ld_unit_zero (S := S1x1024) hz,
    View.ld_unit_zero (S := S206x1024) hz, View.ld_unit_zero (S := S1x206) hz]
  rw [canon16_eq]
  show FloatOps.addf (k0_pay3 (F := Ideal) (k0_pay2 x0 x1 x2 x3 x4 x7 x6) x5 x8 x9 x10 x13 x12 x11 x14 (ix16_0 (ix2 r o)))
    (x15 (ix16_1 (ix2 r o))) = _
  rw [i0, i1, Kern.pay3_apply]
  simp only [Kern.pay2_apply]
  rfl

/-- The result array of RbfSpec.lean at the launch memory's arguments. -/
abbrev Res (c : Dev nD) : Mat 512 206 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The body's block over any staged blocks that read the arguments as the windows do — rows b of the input in the
    block's row r, the other operands whole, the per-unit vectors as one-row arrays — is the result array at (b, o). -/
theorem block_of_blocks (c : Dev nD) (r : Fin 128) (o : Fin 206) (b : Fin 512)
    (X0 : Vec Ideal S128x875 .f32) (X1 : Vec Ideal S2408x875 .bf16) (X2 X3 X4 X5 X6 X7 : Vec Ideal S1x2408 .f32)
    (X8 : Vec Ideal S1024x2408 .bf16) (X9 X10 X11 X12 X13 : Vec Ideal S1x1024 .f32) (X14 : Vec Ideal S206x1024 .bf16)
    (X15 : Vec Ideal S1x206 .f32)
    (h0 : ∀ f : Fin 875, X0 (ix2 r f) = m ((c : Thread nD τ).loc main_arg0) (ix2 b f))
    (h1 : X1 = m ((c : Thread nD τ).loc main_arg1))
    (h2 : ∀ k : Fin 2408, X2 (ix2 (0 : Fin 1) k) = sqNorm (m ((c : Thread nD τ).loc main_arg1)) k)
    (h3 : ∀ k : Fin 2408, X3 (ix2 (0 : Fin 1) k) = m ((c : Thread nD τ).loc main_arg2) (ix1 k))
    (h4 : ∀ k : Fin 2408, X4 (ix2 (0 : Fin 1) k) = m ((c : Thread nD τ).loc main_arg3) (ix1 k))
    (h5 : ∀ k : Fin 2408, X5 (ix2 (0 : Fin 1) k) = m ((c : Thread nD τ).loc main_arg4) (ix1 k))
    (h6 : ∀ k : Fin 2408, X6 (ix2 (0 : Fin 1) k) = m ((c : Thread nD τ).loc main_arg5) (ix1 k))
    (h7 : ∀ k : Fin 2408, X7 (ix2 (0 : Fin 1) k) = m ((c : Thread nD τ).loc main_arg6) (ix1 k))
    (h8 : X8 = m ((c : Thread nD τ).loc main_arg7))
    (h9 : ∀ k : Fin 1024, X9 (ix2 (0 : Fin 1) k) = m ((c : Thread nD τ).loc main_arg8) (ix1 k))
    (h10 : ∀ k : Fin 1024, X10 (ix2 (0 : Fin 1) k) = m ((c : Thread nD τ).loc main_arg9) (ix1 k))
    (h11 : ∀ k : Fin 1024, X11 (ix2 (0 : Fin 1) k) = m ((c : Thread nD τ).loc main_arg10) (ix1 k))
    (h12 : ∀ k : Fin 1024, X12 (ix2 (0 : Fin 1) k) = m ((c : Thread nD τ).loc main_arg11) (ix1 k))
    (h13 : ∀ k : Fin 1024, X13 (ix2 (0 : Fin 1) k) = m ((c : Thread nD τ).loc main_arg12) (ix1 k))
    (h14 : X14 = m ((c : Thread nD τ).loc main_arg13))
    (h15 : ∀ k : Fin 206, X15 (ix2 (0 : Fin 1) k) = m ((c : Thread nD τ).loc main_arg14) (ix1 k)) :
    out0_16 X0 X1 X2 X3 X4 X5 X6 X7 X8 X9 X10 X11 X12 X13 X14 X15 (ix2 r o) = Res m c (ix2 b o) := by
  subst h1 h8 h14
  rw [out_apply]
  simp only [h0, h2, h3, h4, h5, h6, h7, h9, h10, h11, h12, h13, h15]
  rfl

/-- At point t the body's block at y is the result array at row 128·t + (row of y), same column. -/
theorem block_apply (c : Dev nD) (t : Fin cfg0.N) (y : S128x206.Idx) (k : S512x206.Idx)
    (hk0 : (k 0).val = 128 * t.val + (y 0).val) (hk1 : (k 1).val = (y 1).val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = Res m c k := by
  obtain ⟨r, o, rfl⟩ : ∃ (r : Fin 128) (o : Fin 206), y = ix2 r o := ⟨y 0, y 1, eq_ix2 y⟩
  obtain ⟨b, o', rfl⟩ : ∃ (b : Fin 512) (o' : Fin 206), k = ix2 b o' := ⟨k 0, k 1, eq_ix2 k⟩
  obtain rfl : o' = o := Fin.ext hk1
  have hb : b.val = 128 * t.val + r.val := hk0
  exact block_of_blocks m c r o' b (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (fun f => iblk0_apply m c t (ix2 r f) (ix2 b f) hb rfl)
    ((iblk1 m c t).trans (V_v3 m c))
    (fun k => (congrFun (iblk2 m c t) _).trans (V_v2 m c k))
    (fun k => (congrFun (iblk3 m c t) _).trans (V_v6 m c k))
    (fun k => (congrFun (iblk4 m c t) _).trans (V_v7 m c k))
    (fun k => (congrFun (iblk5 m c t) _).trans (V_v8 m c k))
    (fun k => (congrFun (iblk6 m c t) _).trans (V_v9 m c k))
    (fun k => (congrFun (iblk7 m c t) _).trans (V_v10 m c k))
    ((iblk8 m c t).trans (V_v4 m c))
    (fun k => (congrFun (iblk9 m c t) _).trans (V_v11 m c k))
    (fun k => (congrFun (iblk10 m c t) _).trans (V_v12 m c k))
    (fun k => (congrFun (iblk11 m c t) _).trans (V_v13 m c k))
    (fun k => (congrFun (iblk12 m c t) _).trans (V_v14 m c k))
    (fun k => (congrFun (iblk13 m c t) _).trans (V_v15 m c k))
    ((iblk14 m c t).trans (V_v5 m c))
    (fun k => (congrFun (iblk15 m c t) _).trans (V_v16 m c k))

/-- What point t writes back is block t of the result array. -/
theorem flushed_eq (c : Dev nD) (t : Fin cfg0.N) :
    (dats m 0 c).flushed 16 t = ((cfg0.win 16).blk t).view.read (Elt Ideal) (Res m c) := by
  rw [flushed16]
  obtain ⟨-, -, e0, e1⟩ := idx_facts t
  funext j
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = Res m c (((cfg0.win 16).blk t).view.emb j)
  refine block_apply m c t j _ ?_ ?_
  · show win0_16.index t (0 : Fin 2) * 128 + 1 * (j 0).val = 128 * t.val + (j 0).val
    omega
  · show win0_16.index t (1 : Fin 2) * 206 + 1 * (j 1).val = (j 1).val
    omega

/-! ## The array after the run -/

/-- An index of the result array is in point t's block iff each coordinate is in the block's range on its axis. -/
theorem mem_blk (t : Fin cfg0.N) (i : S512x206.Idx) :
    i ∈ ((cfg0.win 16).blk t).view.set ↔ ∀ a : Fin 2, win0_16.index t a * S128x206.size a ≤ (i a).val
      ∧ (i a).val < win0_16.index t a * S128x206.size a + S128x206.size a := by
  show i ∈ ((View.whole main_v17).slice (win0_16.rect t)).set ↔ _
  rw [View.set_slice_whole, Rect.mem_set_unit]
  exact Iff.rfl

/-- Row b of the result array lies in the block of point b / 128, so the four blocks cover the array, and it ends
    holding the head of every input row. -/
theorem final (c : Dev nD) : (dats m 0 c).arrAt 16 cfg0.N = Res m c :=
  (dats m 0 c).arrAt_eq_of_cover 16 (Res m c) (fun t _ => flushed_eq m c t) fun i => by
    have hi0 : (i 0).val < 512 := (i 0).isLt
    have hi1 : (i 1).val < 206 := (i 1).isLt
    have hN : cfg0.N = 4 := N_0
    have hlt : (i 0).val / 128 < cfg0.N := by rw [hN]; omega
    obtain ⟨-, -, e0, e1⟩ := idx_facts ⟨(i 0).val / 128, hlt⟩
    refine ⟨⟨(i 0).val / 128, hlt⟩, flush0_16 _, ?_⟩
    rw [mem_blk]
    intro a
    match a with
    | ⟨0, _⟩ =>
      show win0_16.index ⟨(i 0).val / 128, hlt⟩ (0 : Fin 2) * 128 ≤ (i 0).val
        ∧ (i 0).val < win0_16.index ⟨(i 0).val / 128, hlt⟩ (0 : Fin 2) * 128 + 128
      rw [e0]; show (i 0).val / 128 * 128 ≤ (i 0).val ∧ (i 0).val < (i 0).val / 128 * 128 + 128
      omega
    | ⟨1, _⟩ =>
      show win0_16.index ⟨(i 0).val / 128, hlt⟩ (1 : Fin 2) * 206 ≤ (i 1).val
        ∧ (i 1).val < win0_16.index ⟨(i 0).val / 128, hlt⟩ (1 : Fin 2) * 206 + 206
      rw [e1]; omega

/-- The run, read: the result array ends at the head of every input row, the arguments unchanged. -/
theorem run : θ_run defs (onTc (τ := τ) (main (F := Ideal))) ⟨m, fun _ => 0, ρ⟩ fun r => ∀ c : Dev nD,
      r.2.mem ((c : Thread nD τ).loc main_v17) = Res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (run_blocks m ρ)

end Cert.RbfHead.KernelValue

end
-- ==== Proof.RefLayers.lean ====
/-
  The reference program, stage by stage, is the radial-basis head of RbfSpec.lean: at every entry its distance stage is
  distOf of the three inner products, its two normalised stages are hidden1 / hidden2 (the scale spelt there as a
  quotient by a square root, equal to the reciprocal-square-root spelling where 0 < v + ε), and its result is the head.
-/
import proofs.«163585_j75797582840427_1_alg».proof.Proof.Gen.ReferenceIdeal.Read
import proofs.«163585_j75797582840427_1_alg».proof.Proof.RbfSpec

noncomputable section

open scoped BigOperators

namespace Cert.RbfHead.Ref

open Cert.ReferenceIdeal Cert.ReferenceIdeal.Read Idealize.ShloMosaic Idealize.ShloMosaic.ValueIdx Cert.RbfHead

/-- A sum started from the zero word is the sum. -/
theorem zero_word_add (s : EReal) : Ideal.ofBits .f32 0x00000000#32 + s = s := by
  rw [Ideal.ofBits_zero_f32, zero_add]

/-- The distance stage at (b, c). -/
theorem dist_apply (X : Mat 512 875) (Cn : Mat 2408 875) (sg : Row 2408) (b : Fin 512) (c : Fin 2408) :
    val_main_v19 (F := Ideal) X Cn sg (ix2 b c)
      = distOf (∑ f, X (ix2 b f) * X (ix2 b f)) (sqNorm Cn c) (∑ f, X (ix2 b f) * Cn (ix2 c f)) (sg (ix1 c)) := by
  have e1 : ∀ k : Fin 875, idx_main_v1 (idx_main_v2 (idx_main_v6 (ix2 b c))) k = ix2 b k := fun k =>
    funext fun a => Fin.ext (by match a with | ⟨0, _⟩ => rfl | ⟨1, _⟩ => rfl)
  have e2 : ∀ k : Fin 875, idx_main_v4 (idx_main_v5 (idx_main_v7 (ix2 b c))) k = ix2 c k := fun k =>
    funext fun a => Fin.ext (by match a with | ⟨0, _⟩ => rfl | ⟨1, _⟩ => rfl)
  have e3 : ∀ k : Fin 875, lidx_main_v10 (ix2 b c) k = ix2 b k := fun k =>
    funext fun a => Fin.ext (by match a with | ⟨0, _⟩ => rfl | ⟨1, _⟩ => rfl)
  have e4 : ∀ k : Fin 875, idx_main_v9 (ridx_main_v10 (ix2 b c) k) = ix2 c k := fun k =>
    funext fun a => Fin.ext (by match a with | ⟨0, _⟩ => rfl | ⟨1, _⟩ => rfl)
  have e5 : idx_main_v17 (idx_main_v18 (ix2 b c)) = ix1 c :=
    funext fun a => Fin.ext (by match a with | ⟨0, _⟩ => rfl)
  rw [val_main_v19_apply, val_main_v16_apply, val_main_v15_apply, val_main_v13_apply, val_main_v8_apply,
    val_main_v6_apply, val_main_v2_apply, val_main_v1_apply, val_main_v7_apply, val_main_v5_apply, val_main_v4_apply,
    val_main_v12_apply, val_main_v11_apply, val_main_v10_apply, val_main_v14_apply, val_main_v18_apply,
    val_main_v17_apply]
  simp only [val_main_v0_apply, val_main_v3_apply, val_main_v9_apply, val_main_cst_apply, val_main_cst_0_apply,
    val_main_cst_1_apply, val_main_cst_2_apply, e1, e2, e3, e4, e5, Ideal.ofBits_def, Ideal.mulf_def, Ideal.addf_def,
    Ideal.subf_def, Ideal.maximumf_def, Ideal.hostUnary_sqrt_def, zero_word_add, distOf, sqNorm]

/-- The first normalised, rectified stage at (b, c), where 0 < v + ε at unit c. -/
theorem hidden1_apply (X : Mat 512 875) (Cn : Mat 2408 875) (sg g1 be1 mu1 va1 : Row 2408)
    (hv : ∀ c : Fin 2408, 0 < va1 (ix1 c) + eps) (b : Fin 512) (c : Fin 2408) :
    val_main_v33 (F := Ideal) X Cn sg g1 be1 mu1 va1 (ix2 b c)
      = hidden1 (fun f => X (ix2 b f)) Cn (sqNorm Cn) (fun c => sg (ix1 c)) (fun c => g1 (ix1 c))
          (fun c => be1 (ix1 c)) (fun c => mu1 (ix1 c)) (fun c => va1 (ix1 c)) c := by
  have e1 : idx_main_v20 (idx_main_v21 (ix2 b c)) = ix1 c :=
    funext fun a => Fin.ext (by match a with | ⟨0, _⟩ => rfl)
  have e2 : idx_main_v27 (idx_main_v28 (ix2 b c)) = ix1 c :=
    funext fun a => Fin.ext (by match a with | ⟨0, _⟩ => rfl)
  have e3 : idx_main_v30 (idx_main_v31 (ix2 b c)) = ix1 c :=
    funext fun a => Fin.ext (by match a with | ⟨0, _⟩ => rfl)
  rw [val_main_v33_apply, val_main_v32_apply, val_main_v29_apply, val_main_v22_apply, dist_apply, val_main_v21_apply,
    val_main_v20_apply, val_main_v28_apply, val_main_v27_apply, val_main_v26_apply, val_main_v25_apply,
    val_main_v24_apply, val_main_v23_apply, val_main_v31_apply, val_main_v30_apply, val_main_call0_v0_apply]
  simp only [val_main_cst_3_apply, val_main_call0_cst_apply, e1, e2, e3, Ideal.ofBits_def, Ideal.mulf_def,
    Ideal.addf_def, Ideal.subf_def, Ideal.maximumf_def, Ideal.hostUnary_sqrt_def, Ideal.hostDivf_def]
  rw [scale_eq_div _ _ (hv c)]
  rfl

/-- The second normalised, rectified stage at (b, j) over the first one's row, where 0 < v + ε at unit j. -/
theorem hidden2_apply (X : Mat 512 875) (Cn : Mat 2408 875) (sg g1 be1 mu1 va1 : Row 2408) (W1 : Mat 1024 2408)
    (b1 g2 be2 mu2 va2 : Row 1024) (hv : ∀ j : Fin 1024, 0 < va2 (ix1 j) + eps) (b : Fin 512) (j : Fin 1024) :
    val_main_v52 (F := Ideal) X Cn sg g1 be1 mu1 va1 W1 b1 g2 be2 mu2 va2 (ix2 b j)
      = hidden2 (fun c => val_main_v33 (F := Ideal) X Cn sg g1 be1 mu1 va1 (ix2 b c)) W1 (fun j => b1 (ix1 j))
          (fun j => g2 (ix1 j)) (fun j => be2 (ix1 j)) (fun j => mu2 (ix1 j)) (fun j => va2 (ix1 j)) j := by
  have e1 : ∀ k : Fin 2408, lidx_main_v35 (ix2 b j) k = ix2 b k := fun k =>
    funext fun a => Fin.ext (by match a with | ⟨0, _⟩ => rfl | ⟨1, _⟩ => rfl)
  have e2 : ∀ k : Fin 2408, idx_main_v34 (ridx_main_v35 (ix2 b j) k) = ix2 j k := fun k =>
    funext fun a => Fin.ext (by match a with | ⟨0, _⟩ => rfl | ⟨1, _⟩ => rfl)
  have e3 : idx_main_v36 (idx_main_v37 (ix2 b j)) = ix1 j :=
    funext fun a => Fin.ext (by match a with | ⟨0, _⟩ => rfl)
  have e4 : idx_main_v39 (idx_main_v40 (ix2 b j)) = ix1 j :=
    funext fun a => Fin.ext (by match a with | ⟨0, _⟩ => rfl)
  have e5 : idx_main_v46 (idx_main_v47 (ix2 b j)) = ix1 j :=
    funext fun a => Fin.ext (by match a with | ⟨0, _⟩ => rfl)
  have e6 : idx_main_v49 (idx_main_v50 (ix2 b j)) = ix1 j :=
    funext fun a => Fin.ext (by match a with | ⟨0, _⟩ => rfl)
  rw [val_main_v52_apply, val_main_v51_apply, val_main_v48_apply, val_main_v41_apply, val_main_v38_apply,
    val_main_v35_apply, val_main_v37_apply, val_main_v36_apply, val_main_v40_apply, val_main_v39_apply,
    val_main_v47_apply, val_main_v46_apply, val_main_v45_apply, val_main_v44_apply, val_main_v43_apply,
    val_main_v42_apply, val_main_v50_apply, val_main_v49_apply, val_main_call1_v0_apply]
  simp only [val_main_v34_apply, val_main_cst_4_apply, val_main_call1_cst_apply, e1, e2, e3, e4, e5, e6,
    Ideal.ofBits_def, Ideal.mulf_def, Ideal.addf_def, Ideal.subf_def, Ideal.maximumf_def, Ideal.hostUnary_sqrt_def,
    Ideal.hostDivf_def]
  rw [scale_eq_div _ _ (hv j)]
  rfl

/-- The result stage at (b, o) over the second hidden stage's row. -/
theorem out_apply (X : Mat 512 875) (Cn : Mat 2408 875) (sg g1 be1 mu1 va1 : Row 2408) (W1 : Mat 1024 2408)
    (b1 g2 be2 mu2 va2 : Row 1024) (W2 : Mat 206 1024) (b2 : Row 206) (b : Fin 512) (o : Fin 206) :
    val_main_v57 (F := Ideal) X Cn sg g1 be1 mu1 va1 W1 b1 g2 be2 mu2 va2 W2 b2 (ix2 b o)
      = affine (fun j => val_main_v52 (F := Ideal) X Cn sg g1 be1 mu1 va1 W1 b1 g2 be2 mu2 va2 (ix2 b j)) W2
          (fun o => b2 (ix1 o)) o := by
  have e1 : ∀ k : Fin 1024, lidx_main_v54 (ix2 b o) k = ix2 b k := fun k =>
    funext fun a => Fin.ext (by match a with | ⟨0, _⟩ => rfl | ⟨1, _⟩ => rfl)
  have e2 : ∀ k : Fin 1024, idx_main_v53 (ridx_main_v54 (ix2 b o) k) = ix2 o k := fun k =>
    funext fun a => Fin.ext (by match a with | ⟨0, _⟩ => rfl | ⟨1, _⟩ => rfl)
  have e3 : idx_main_v55 (idx_main_v56 (ix2 b o)) = ix1 o :=
    funext fun a => Fin.ext (by match a with | ⟨0, _⟩ => rfl)
  rw [val_main_v57_apply, val_main_v54_apply, val_main_v56_apply, val_main_v55_apply]
  simp only [val_main_v53_apply, e1, e2, e3, Ideal.addf_def]
  rfl

/-- The reference's result array is the head of every input row, where 0 < v + ε at every unit of both normalisations. -/
theorem result_eq (X : Mat 512 875) (Cn : Mat 2408 875) (sg g1 be1 mu1 va1 : Row 2408) (W1 : Mat 1024 2408)
    (b1 g2 be2 mu2 va2 : Row 1024) (W2 : Mat 206 1024) (b2 : Row 206)
    (hv1 : ∀ c : Fin 2408, 0 < va1 (ix1 c) + eps) (hv2 : ∀ j : Fin 1024, 0 < va2 (ix1 j) + eps) :
    val_main_v57 (F := Ideal) X Cn sg g1 be1 mu1 va1 W1 b1 g2 be2 mu2 va2 W2 b2
      = result X Cn sg g1 be1 mu1 va1 W1 b1 g2 be2 mu2 va2 W2 b2 := by
  funext i
  obtain ⟨b, o, rfl⟩ : ∃ (b : Fin 512) (o : Fin 206), i = ix2 b o := ⟨i 0, i 1, eq_ix2 i⟩
  rw [out_apply]
  simp only [hidden2_apply X Cn sg g1 be1 mu1 va1 W1 b1 g2 be2 mu2 va2 hv2,
    hidden1_apply X Cn sg g1 be1 mu1 va1 hv1]
  rfl

end Cert.RbfHead.Ref

end
-- ==== Proof.PreDecode.lean ====
/-
  What the precondition says of the two variance vectors. The precondition is a conjunction, over all inputs, of
  "every entry is finite", followed by "every entry of v + ε is above 0" for the two variance vectors. The last two
  conjuncts, read at an index on the extended reals, give  0 < v_c + ε  at every unit c.
-/
import proofs.«163585_j75797582840427_1_alg».proof.Proof.Gen.Pre_finite_inputs
import proofs.«163585_j75797582840427_1_alg».proof.Proof.RbfSpec
import Idealize.ShloMosaic.Lib.ReduceAll
import Idealize.ShloMosaic.Lib.Pipeline.Value

noncomputable section

namespace Cert.RbfHead.PreDecode

open Cert.Pre_finite_inputs Idealize.ShloMosaic Idealize.ShloMosaic.ValueIdx Cert.RbfHead

variable [Cert.Pre_finite_inputs.Facts]

instance : Subsingleton S_.Idx := ⟨fun a b => funext fun d => d.elim0⟩

/-- A comparison "greater than" that came out 1 is the strict order on the extended reals. -/
theorem lt_of_cmp_ogt (x y : EReal) (h : Ideal.cmp .ogt x y = 1#1) : y < x := by
  by_contra hn
  have e : Ideal.cmp .ogt x y = 0#1 := by
    show BitVec.ofBool (decide (y < x)) = 0#1
    rw [decide_eq_false hn]; rfl
  rw [e] at h
  exact absurd h (by decide)

/-- One conjunct "all of v + ε > 0", read at an index. -/
theorem pos_of_all {n : ℕ} (v : FVec Ideal ⟨1, ![n]⟩ .f32) (hb : S_.BroadcastsInDim ⟨1, ![n]⟩ (![] : Fin 0 → Fin 1))
    (hr : (⟨1, ![n]⟩ : Shape).ReducesTo [0] S_) (hu : 0 < S_.numel) (init : IVec S_ 1)
    (e : Host.reduce IntOp.andi
        (cmpf .ogt (addf v (broadcastInDim ⟨1, ![n]⟩ ![] hb (constant S_ .f32 0x3727C5AC#32)))
          (broadcastInDim ⟨1, ![n]⟩ ![] hb (constant S_ .f32 0x00000000#32))) init hr hu ix0 = 1#1)
    (c : Fin n) : 0 < v (ix1 c) + eps := by
  have h1 := Host.reduce_andi_all _ init hr hu ix0 e (ix1 c)
  have h2 : Ideal.cmp .ogt (v (ix1 c) + eps) zer = 1#1 := by
    rw [← h1]
    show _ = Ideal.cmp .ogt (v (ix1 c) + broadcastInDim ⟨1, ![n]⟩ ![] hb (constant (F := Ideal) S_ .f32 0x3727C5AC#32) (ix1 c))
      (broadcastInDim ⟨1, ![n]⟩ ![] hb (constant (F := Ideal) S_ .f32 0x00000000#32) (ix1 c))
    rw [broadcastInDim_apply _ hb (constant (F := Ideal) S_ .f32 0x3727C5AC#32) (ix1 c) ix0 (fun a => a.elim0),
      broadcastInDim_apply _ hb (constant (F := Ideal) S_ .f32 0x00000000#32) (ix1 c) ix0 (fun a => a.elim0)]
    rfl
  have h3 := lt_of_cmp_ogt _ _ h2
  rwa [show zer = 0 from Ideal.ofBits_zero_f32] at h3

/-- The precondition gives 0 < v + ε at every unit of both variance vectors. -/
theorem var_pos (a0 : FVec Ideal S512x875 .f32) (a1 : FVec Ideal S2408x875 .f32) (a2 a3 a4 a5 a6 : FVec Ideal S2408 .f32)
    (a7 : FVec Ideal S1024x2408 .f32) (a8 a9 a10 a11 a12 : FVec Ideal S1024 .f32) (a13 : FVec Ideal S206x1024 .f32)
    (a14 : FVec Ideal S206 .f32)
    (h : fn (F := Ideal) a0 a1 a2 a3 a4 a5 a6 a7 a8 a9 a10 a11 a12 a13 a14 = fun _ => 1#1) :
    (∀ c : Fin 2408, 0 < a6 (ix1 c) + eps) ∧ (∀ j : Fin 1024, 0 < a12 (ix1 j) + eps) := by
  have h0 := congrFun h ix0
  dsimp only [fn, fn_part1, fn_part2, fn_part3, fn_part4, fn_part5] at h0
  obtain ⟨h79, h84⟩ := IntOp.andi_eq_one.1 h0
  obtain ⟨-, h78⟩ := IntOp.andi_eq_one.1 h79
  exact ⟨fun c => pos_of_all a6 _ _ _ _ h78 c, fun j => pos_of_all a12 _ _ _ _ h84 j⟩

end Cert.RbfHead.PreDecode

end
-- ==== Proof.lean ====
/-
  An RBF-network head: for 512 input rows, the distance of every row to 2408 centres (through the expansion
  |x − c|² = |x|² + |c|² − 2⟨x, c⟩, clamped at 0 before the square root) times a width, then a normalised rectified
  layer, an affine layer into 1024 units, a second normalised rectified layer, and an affine layer into 206 outputs.

  The kernel takes four blocks of 128 rows. It is given the centres' squared norms (computed by the host), spells each
  normalisation's scale as  γ · rsqrt(v + ε)  and multiplies in a narrower float format; the reference spells the
  scale  γ / sqrt(v + ε) . On the extended reals a change of float format is the identity and every product into a
  zero accumulator, row sum and general product is the plain sum, so both programs compute the one function
  result of RbfSpec.lean — the kernel block by block (KernelValue.lean over KernelLayers.lean), the reference
  stage by stage (RefLayers.lean) — given  γ · rsqrt y = γ / sqrt y , which holds for 0 < y and fails for y ≤ 0 . The
  precondition therefore asks, beside finite inputs,  0 < v + ε  for both variance vectors (the reference's own
  sqrt and quotient are undefined or infinite otherwise); PreDecode.lean reads that off the printed predicate. Finiteness
  of the inputs is not used: the remaining arithmetic of the two programs is the same term.
-/
import proofs.«163585_j75797582840427_1_alg».proof.Defs
import proofs.«163585_j75797582840427_1_alg».proof.Proof.Gen.Kernel
import proofs.«163585_j75797582840427_1_alg».proof.Proof.Gen.Kernel.Skeleton
import proofs.«163585_j75797582840427_1_alg».proof.Proof.Gen.Kernel.Launch
import proofs.«163585_j75797582840427_1_alg».proof.Proof.Gen.Kernel.Points
import proofs.«163585_j75797582840427_1_alg».proof.Proof.Gen.Kernel.Frame
import proofs.«163585_j75797582840427_1_alg».proof.Proof.Gen.KernelIdeal
import proofs.«163585_j75797582840427_1_alg».proof.Proof.Gen.KernelIdeal.Skeleton
import proofs.«163585_j75797582840427_1_alg».proof.Proof.Gen.KernelIdeal.Launch
import proofs.«163585_j75797582840427_1_alg».proof.Proof.Gen.KernelIdeal.Points
import proofs.«163585_j75797582840427_1_alg».proof.Proof.Gen.KernelIdeal.Frame
import proofs.«163585_j75797582840427_1_alg».proof.Proof.Gen.ReferenceIdeal
import proofs.«163585_j75797582840427_1_alg».proof.Proof.Gen.Pre_finite_inputs
import proofs.«163585_j75797582840427_1_alg».proof.Proof.Gen.KernelIdeal.Value
import proofs.«163585_j75797582840427_1_alg».proof.Proof.Gen.ReferenceIdeal.Run
import proofs.«163585_j75797582840427_1_alg».proof.Proof.Gen.ReferenceIdeal.Read
import proofs.«163585_j75797582840427_1_alg».proof.Proof.KernelValue
import proofs.«163585_j75797582840427_1_alg».proof.Proof.RefLayers
import proofs.«163585_j75797582840427_1_alg».proof.Proof.PreDecode
import Idealize.ShloMosaic.Adequacy
import Idealize.ShloMosaic.Init

noncomputable section

namespace Cert.Proof

open Idealize.ShloMosaic Idealize.ShloMosaic.TcCoe Idealize.SL.Sem

/-- Each program runs to the end without a fault and leaves its arguments as they were. The reference has no kernel: its
    run read back, with the result dropped, is its frame. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with 0 < v + ε for both variance vectors, the kernel's result array and
    the reference's both end at the head of every input row. -/
theorem algebraic : Cert.algebraic_KernelIdeal_ReferenceIdeal := by
  intro m ρ m' ρ' hpre hagree
  refine ⟨fun c => Cert.RbfHead.KernelValue.Res m c, Cert.RbfHead.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hv1, hv2⟩ := Cert.RbfHead.PreDecode.var_pos _ _ _ _ _ _ _ _ _ _ _ _ _ _ _ (hpre c)
  obtain ⟨h0, h1, h2, h3, h4, h5, h6, h7, h8, h9, h10, h11, h12, h13, h14⟩ := hagree c
  rw [h0, h1, h2, h3, h4, h5, h6, h7, h8, h9, h10, h11, h12, h13, h14, Cert.ReferenceIdeal.Read.val_main_v57_eq]
  exact Cert.RbfHead.Ref.result_eq _ _ _ _ _ _ _ _ _ _ _ _ _ _ _ hv1 hv2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
